-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x400x64 : Shape := ⟨3, ![4096, 400, 64]⟩
abbrev S_ : Shape := ⟨0, ![]⟩

class Facts : Prop where
  bcast_S_S4096x400x64 : S_.BroadcastsInDim S4096x400x64 (![] : Fin 0 → Fin S4096x400x64.rank)
  reducesTo_S4096x400x64_S_d0_1_2 : S4096x400x64.ReducesTo [0, 1, 2] S_
  h_S_ : 0 < S_.numel

variable [Facts]

def fn {F : FTy → Type} [FloatOps F] (main_arg0 : FVec F S4096x400x64 .f32) : IVec S_ 1 :=
  let main_v0 : FVec F S4096x400x64 .f32 := Host.absf main_arg0
  let main_cst : FVec F S_ .f32 := constant S_ .f32 0x7F800000#32
  let main_v1 : FVec F S4096x400x64 .f32 := broadcastInDim S4096x400x64 ![] bcast_S_S4096x400x64 main_cst
  let main_v2 : IVec S4096x400x64 1 := cmpf .olt main_v0 main_v1
  let main_c : IVec S_ 1 := constantI S_ 1 1#1
  let main_v3 : IVec S_ 1 := (fun x v => Host.reduce IntOp.andi x v reducesTo_S4096x400x64_S_d0_1_2 h_S_) main_v2 main_c
  main_v3
-- ==== Kernel.lean ====
abbrev S4096x400x64 : Shape := ⟨3, ![4096, 400, 64]⟩
abbrev S4096x25600 : Shape := ⟨2, ![4096, 25600]⟩
abbrev S4096x12160 : Shape := ⟨2, ![4096, 12160]⟩
abbrev S128x25600 : Shape := ⟨2, ![128, 25600]⟩
abbrev S128x12160 : Shape := ⟨2, ![128, 12160]⟩
abbrev S128x64 : Shape := ⟨2, ![128, 64]⟩
abbrev S128x128 : Shape := ⟨2, ![128, 128]⟩
abbrev S4096x1x190x64 : Shape := ⟨4, ![4096, 1, 190, 64]⟩

abbrev nBuf : Space → Nat
  | .hbm => 4
  | .vmem => 4
  | .smem => 0
  | _ => 0

abbrev bufTy : (tb : Table) → Fin (tcTables nBuf tb) → BufTy
  | .hbm, ⟨0, _⟩ => ⟨S4096x400x64, .f32⟩
  | .hbm, ⟨1, _⟩ => ⟨S4096x25600, .f32⟩
  | .hbm, ⟨2, _⟩ => ⟨S4096x12160, .f32⟩
  | .hbm, ⟨3, _⟩ => ⟨S4096x1x190x64, .f32⟩
  | .local _ .vmem, ⟨0, _⟩ => ⟨S128x25600, .f32⟩
  | .local _ .vmem, ⟨1, _⟩ => ⟨S128x25600, .f32⟩
  | .local _ .vmem, ⟨2, _⟩ => ⟨S128x12160, .f32⟩
  | .local _ .vmem, ⟨3, _⟩ => ⟨S128x12160, .f32⟩
  | _, _ => ⟨S4096x400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x400x64_S4096x25600 : S4096x400x64.ShapeCasts S4096x25600
  inb_S128x25600_S128x64_0_1280 : ∀ a, (![0, 1280] : Fin 2 → Nat) a + S128x64.size a ≤ S128x25600.size a
  h_S128x64 : 0 < S128x64.numel
  shapeCasts_S128x64_S128x64 : S128x64.ShapeCasts S128x64
  inb_S128x25600_S128x64_0_64 : ∀ a, (![0, 64] : Fin 2 → Nat) a + S128x64.size a ≤ S128x25600.size a
  inb_S128x25600_S128x64_0_2560 : ∀ a, (![0, 2560] : Fin 2 → Nat) a + S128x64.size a ≤ S128x25600.size a
  inb_S128x25600_S128x64_0_128 : ∀ a, (![0, 128] : Fin 2 → Nat) a + S128x64.size a ≤ S128x25600.size a
  concatenates_S128x64_S128x64_S128x128_d1 : Shape.Concatenates [S128x64, S128x64] S128x128 1
  inb_S128x12160_S128x128_0_0 : ∀ a, (![0, 0] : Fin 2 → Nat) a + S128x128.size a ≤ S128x12160.size a
  h_S128x128 : 0 < S128x128.numel
  inb_S128x25600_S128x64_0_3840 : ∀ a, (![0, 3840] : Fin 2 → Nat) a + S128x64.size a ≤ S128x25600.size a
  inb_S128x25600_S128x64_0_192 : ∀ a, (![0, 192] : Fin 2 → Nat) a + S128x64.size a ≤ S128x25600.size a
  inb_S128x25600_S128x64_0_5120 : ∀ a, (![0, 5120] : Fin 2 → Nat) a + S128x64.size a ≤ S128x25600.size a
  inb_S128x25600_S128x64_0_256 : ∀ a, (![0, 256] : Fin 2 → Nat) a + S128x64.size a ≤ S128x25600.size a
  inb_S128x12160_S128x128_0_128 : ∀ a, (![0, 128] : Fin 2 → Nat) a + S128x128.size a ≤ S128x12160.size a
  inb_S128x25600_S128x64_0_6400 : ∀ a, (![0, 6400] : Fin 2 → Nat) a + S128x64.size a ≤ S128x25600.size a
  inb_S128x25600_S128x64_0_320 : ∀ a, (![0, 320] : Fin 2 → Nat) a + S128x64.size a ≤ S128x25600.size a
  inb_S128x25600_S128x64_0_7680 : ∀ a, (![0, 7680] : Fin 2 → Nat) a + S128x64.size a ≤ S128x25600.size a
  inb_S128x25600_S128x64_0_384 : ∀ a, (![0, 384] : Fin 2 → Nat) a + S128x64.size a ≤ S128x25600.size a
  inb_S128x12160_S128x128_0_256 : ∀ a, (![0, 256] : Fin 2 → Nat) a + S128x128.size a ≤ S128x12160.size a
  inb_S128x25600_S128x64_0_8960 : ∀ a, (![0, 8960] : Fin 2 → Nat) a + S128x64.size a ≤ S128x25600.size a
  inb_S128x25600_S128x64_0_448 : ∀ a, (![0, 448] : Fin 2 → Nat) a + S128x64.size a ≤ S128x25600.size a
  inb_S128x25600_S128x64_0_10240 : ∀ a, (![0, 10240] : Fin 2 → Nat) a + S128x64.size a ≤ S128x25600.size a
  inb_S128x25600_S128x64_0_512 : ∀ a, (![0, 512] : Fin 2 → Nat) a + S128x64.size a ≤ S128x25600.size a
  inb_S128x12160_S128x128_0_384 : ∀ a, (![0, 384] : Fin 2 → Nat) a + S128x128.size a ≤ S128x12160.size a
  inb_S128x25600_S128x64_0_11520 : ∀ a, (![0, 11520] : Fin 2 → Nat) a + S128x64.size a ≤ S128x25600.size a
  inb_S128x25600_S128x64_0_576 : ∀ a, (![0, 576] : Fin 2 → Nat) a + S128x64.size a ≤ S128x25600.size a
  inb_S128x25600_S128x64_0_12800 : ∀ a, (![0, 12800] : Fin 2 → Nat) a + S128x64.size a ≤ S128x25600.size a
  inb_S128x25600_S128x64_0_640 : ∀ a, (![0, 640] : Fin 2 → Nat) a + S128x64.size a ≤ S128x25600.size a
  inb_S128x12160_S128x128_0_512 : ∀ a, (![0, 512] : Fin 2 → Nat) a + S128x128.size a ≤ S128x12160.size a
  inb_S128x25600_S128x64_0_14080 : ∀ a, (![0, 14080] : Fin 2 → Nat) a + S128x64.size a ≤ S128x25600.size a
  inb_S128x25600_S128x64_0_704 : ∀ a, (![0, 704] : Fin 2 → Nat) a + S128x64.size a ≤ S128x25600.size a
  inb_S128x25600_S128x64_0_15360 : ∀ a, (![0, 15360] : Fin 2 → Nat) a + S128x64.size a ≤ S128x25600.size a
  inb_S128x25600_S128x64_0_768 : ∀ a, (![0, 768] : Fin 2 → Nat) a + S128x64.size a ≤ S128x25600.size a
  inb_S128x12160_S128x128_0_640 : ∀ a, (![0, 640] : Fin 2 → Nat) a + S128x128.size a ≤ S128x12160.size a
  inb_S128x25600_S128x64_0_16640 : ∀ a, (![0, 16640] : Fin 2 → Nat) a + S128x64.size a ≤ S128x25600.size a
  inb_S128x25600_S128x64_0_832 : ∀ a, (![0, 832] : Fin 2 → Nat) a + S128x64.size a ≤ S128x25600.size a
  inb_S128x25600_S128x64_0_17920 : ∀ a, (![0, 17920] : Fin 2 → Nat) a + S128x64.size a ≤ S128x25600.size a
  inb_S128x25600_S128x64_0_896 : ∀ a, (![0, 896] : Fin 2 → Nat) a + S128x64.size a ≤ S128x25600.size a
  inb_S128x12160_S128x128_0_768 : ∀ a, (![0, 768] : Fin 2 → Nat) a + S128x128.size a ≤ S128x12160.size a
  inb_S128x25600_S128x64_0_19200 : ∀ a, (![0, 19200] : Fin 2 → Nat) a + S128x64.size a ≤ S128x25600.size a
  inb_S128x25600_S128x64_0_960 : ∀ a, (![0, 960] : Fin 2 → Nat) a + S128x64.size a ≤ S128x25600.size a
  inb_S128x25600_S128x64_0_20480 : ∀ a, (![0, 20480] : Fin 2 → Nat) a + S128x64.size a ≤ S128x25600.size a
  inb_S128x25600_S128x64_0_1024 : ∀ a, (![0, 1024] : Fin 2 → Nat) a + S128x64.size a ≤ S128x25600.size a
  inb_S128x12160_S128x128_0_896 : ∀ a, (![0, 896] : Fin 2 → Nat) a + S128x128.size a ≤ S128x12160.size a
  inb_S128x25600_S128x64_0_21760 : ∀ a, (![0, 21760] : Fin 2 → Nat) a + S128x64.size a ≤ S128x25600.size a
  inb_S128x25600_S128x64_0_1088 : ∀ a, (![0, 1088] : Fin 2 → Nat) a + S128x64.size a ≤ S128x25600.size a
  inb_S128x25600_S128x64_0_23040 : ∀ a, (![0, 23040] : Fin 2 → Nat) a + S128x64.size a ≤ S128x25600.size a
  inb_S128x25600_S128x64_0_1152 : ∀ a, (![0, 1152] : Fin 2 → Nat) a + S128x64.size a ≤ S128x25600.size a
  inb_S128x12160_S128x128_0_1024 : ∀ a, (![0, 1024] : Fin 2 → Nat) a + S128x128.size a ≤ S128x12160.size a
  inb_S128x25600_S128x64_0_24320 : ∀ a, (![0, 24320] : Fin 2 → Nat) a + S128x64.size a ≤ S128x25600.size a
  inb_S128x25600_S128x64_0_1216 : ∀ a, (![0, 1216] : Fin 2 → Nat) a + S128x64.size a ≤ S128x25600.size a
  inb_S128x25600_S128x64_0_2624 : ∀ a, (![0, 2624] : Fin 2 → Nat) a + S128x64.size a ≤ S128x25600.size a
  inb_S128x25600_S128x64_0_1408 : ∀ a, (![0, 1408] : Fin 2 → Nat) a + S128x64.size a ≤ S128x25600.size a
  inb_S128x12160_S128x128_0_1152 : ∀ a, (![0, 1152] : Fin 2 → Nat) a + S128x128.size a ≤ S128x12160.size a
  inb_S128x25600_S128x64_0_3904 : ∀ a, (![0, 3904] : Fin 2 → Nat) a + S128x64.size a ≤ S128x25600.size a
  inb_S128x25600_S128x64_0_1472 : ∀ a, (![0, 1472] : Fin 2 → Nat) a + S128x64.size a ≤ S128x25600.size a
  inb_S128x25600_S128x64_0_5184 : ∀ a, (![0, 5184] : Fin 2 → Nat) a + S128x64.size a ≤ S128x25600.size a
  inb_S128x25600_S128x64_0_1536 : ∀ a, (![0, 1536] : Fin 2 → Nat) a + S128x64.size a ≤ S128x25600.size a
  inb_S128x12160_S128x128_0_1280 : ∀ a, (![0, 1280] : Fin 2 → Nat) a + S128x128.size a ≤ S128x12160.size a
  inb_S128x25600_S128x64_0_6464 : ∀ a, (![0, 6464] : Fin 2 → Nat) a + S128x64.size a ≤ S128x25600.size a
  inb_S128x25600_S128x64_0_1600 : ∀ a, (![0, 1600] : Fin 2 → Nat) a + S128x64.size a ≤ S128x25600.size a
  inb_S128x25600_S128x64_0_7744 : ∀ a, (![0, 7744] : Fin 2 → Nat) a + S128x64.size a ≤ S128x25600.size a
  inb_S128x25600_S128x64_0_1664 : ∀ a, (![0, 1664] : Fin 2 → Nat) a + S128x64.size a ≤ S128x25600.size a
  inb_S128x12160_S128x128_0_1408 : ∀ a, (![0, 1408] : Fin 2 → Nat) a + S128x128.size a ≤ S128x12160.size a
  inb_S128x25600_S128x64_0_9024 : ∀ a, (![0, 9024] : Fin 2 → Nat) a + S128x64.size a ≤ S128x25600.size a
  inb_S128x25600_S128x64_0_1728 : ∀ a, (![0, 1728] : Fin 2 → Nat) a + S128x64.size a ≤ S128x25600.size a
  inb_S128x25600_S128x64_0_10304 : ∀ a, (![0, 10304] : Fin 2 → Nat) a + S128x64.size a ≤ S128x25600.size a
  inb_S128x25600_S128x64_0_1792 : ∀ a, (![0, 1792] : Fin 2 → Nat) a + S128x64.size a ≤ S128x25600.size a
  inb_S128x12160_S128x128_0_1536 : ∀ a, (![0, 1536] : Fin 2 → Nat) a + S128x128.size a ≤ S128x12160.size a
  inb_S128x25600_S128x64_0_11584 : ∀ a, (![0, 11584] : Fin 2 → Nat) a + S128x64.size a ≤ S128x25600.size a
  inb_S128x25600_S128x64_0_1856 : ∀ a, (![0, 1856] : Fin 2 → Nat) a + S128x64.size a ≤ S128x25600.size a
  inb_S128x25600_S128x64_0_12864 : ∀ a, (![0, 12864] : Fin 2 → Nat) a + S128x64.size a ≤ S128x25600.size a
  inb_S128x25600_S128x64_0_1920 : ∀ a, (![0, 1920] : Fin 2 → Nat) a + S128x64.size a ≤ S128x25600.size a
  inb_S128x12160_S128x128_0_1664 : ∀ a, (![0, 1664] : Fin 2 → Nat) a + S128x128.size a ≤ S128x12160.size a
  inb_S128x25600_S128x64_0_14144 : ∀ a, (![0, 14144] : Fin 2 → Nat) a + S128x64.size a ≤ S128x25600.size a
  inb_S128x25600_S128x64_0_1984 : ∀ a, (![0, 1984] : Fin 2 → Nat) a + S128x64.size a ≤ S128x25600.size a
  inb_S128x25600_S128x64_0_15424 : ∀ a, (![0, 15424] : Fin 2 → Nat) a + S128x64.size a ≤ S128x25600.size a
  inb_S128x25600_S128x64_0_2048 : ∀ a, (![0, 2048] : Fin 2 → Nat) a + S128x64.size a ≤ S128x25600.size a
  inb_S128x12160_S128x128_0_1792 : ∀ a, (![0, 1792] : Fin 2 → Nat) a + S128x128.size a ≤ S128x12160.size a
  inb_S128x25600_S128x64_0_16704 : ∀ a, (![0, 16704] : Fin 2 → Nat) a + S128x64.size a ≤ S128x25600.size a
  inb_S128x25600_S128x64_0_2112 : ∀ a, (![0, 2112] : Fin 2 → Nat) a + S128x64.size a ≤ S128x25600.size a
  inb_S128x25600_S128x64_0_17984 : ∀ a, (![0, 17984] : Fin 2 → Nat) a + S128x64.size a ≤ S128x25600.size a
  inb_S128x25600_S128x64_0_2176 : ∀ a, (![0, 2176] : Fin 2 → Nat) a + S128x64.size a ≤ S128x25600.size a
  inb_S128x12160_S128x128_0_1920 : ∀ a, (![0, 1920] : Fin 2 → Nat) a + S128x128.size a ≤ S128x12160.size a
  inb_S128x25600_S128x64_0_19264 : ∀ a, (![0, 19264] : Fin 2 → Nat) a + S128x64.size a ≤ S128x25600.size a
  inb_S128x25600_S128x64_0_2240 : ∀ a, (![0, 2240] : Fin 2 → Nat) a + S128x64.size a ≤ S128x25600.size a
  inb_S128x25600_S128x64_0_20544 : ∀ a, (![0, 20544] : Fin 2 → Nat) a + S128x64.size a ≤ S128x25600.size a
  inb_S128x25600_S128x64_0_2304 : ∀ a, (![0, 2304] : Fin 2 → Nat) a + S128x64.size a ≤ S128x25600.size a
  inb_S128x12160_S128x128_0_2048 : ∀ a, (![0, 2048] : Fin 2 → Nat) a + S128x128.size a ≤ S128x12160.size a
  inb_S128x25600_S128x64_0_21824 : ∀ a, (![0, 21824] : Fin 2 → Nat) a + S128x64.size a ≤ S128x25600.size a
  inb_S128x25600_S128x64_0_2368 : ∀ a, (![0, 2368] : Fin 2 → Nat) a + S128x64.size a ≤ S128x25600.size a
  inb_S128x25600_S128x64_0_23104 : ∀ a, (![0, 23104] : Fin 2 → Nat) a + S128x64.size a ≤ S128x25600.size a
  inb_S128x25600_S128x64_0_2432 : ∀ a, (![0, 2432] : Fin 2 → Nat) a + S128x64.size a ≤ S128x25600.size a
  inb_S128x12160_S128x128_0_2176 : ∀ a, (![0, 2176] : Fin 2 → Nat) a + S128x128.size a ≤ S128x12160.size a
  inb_S128x25600_S128x64_0_24384 : ∀ a, (![0, 24384] : Fin 2 → Nat) a + S128x64.size a ≤ S128x25600.size a
  inb_S128x25600_S128x64_0_2496 : ∀ a, (![0, 2496] : Fin 2 → Nat) a + S128x64.size a ≤ S128x25600.size a
  inb_S128x25600_S128x64_0_3968 : ∀ a, (![0, 3968] : Fin 2 → Nat) a + S128x64.size a ≤ S128x25600.size a
  inb_S128x25600_S128x64_0_2752 : ∀ a, (![0, 2752] : Fin 2 → Nat) a + S128x64.size a ≤ S128x25600.size a
  inb_S128x12160_S128x128_0_2304 : ∀ a, (![0, 2304] : Fin 2 → Nat) a + S128x128.size a ≤ S128x12160.size a
  inb_S128x25600_S128x64_0_5248 : ∀ a, (![0, 5248] : Fin 2 → Nat) a + S128x64.size a ≤ S128x25600.size a
  inb_S128x25600_S128x64_0_2816 : ∀ a, (![0, 2816] : Fin 2 → Nat) a + S128x64.size a ≤ S128x25600.size a
  inb_S128x25600_S128x64_0_6528 : ∀ a, (![0, 6528] : Fin 2 → Nat) a + S128x64.size a ≤ S128x25600.size a
  inb_S128x25600_S128x64_0_2880 : ∀ a, (![0, 2880] : Fin 2 → Nat) a + S128x64.size a ≤ S128x25600.size a
  inb_S128x12160_S128x128_0_2432 : ∀ a, (![0, 2432] : Fin 2 → Nat) a + S128x128.size a ≤ S128x12160.size a
  inb_S128x25600_S128x64_0_7808 : ∀ a, (![0, 7808] : Fin 2 → Nat) a + S128x64.size a ≤ S128x25600.size a
  inb_S128x25600_S128x64_0_2944 : ∀ a, (![0, 2944] : Fin 2 → Nat) a + S128x64.size a ≤ S128x25600.size a
  inb_S128x25600_S128x64_0_9088 : ∀ a, (![0, 9088] : Fin 2 → Nat) a + S128x64.size a ≤ S128x25600.size a
  inb_S128x25600_S128x64_0_3008 : ∀ a, (![0, 3008] : Fin 2 → Nat) a + S128x64.size a ≤ S128x25600.size a
  inb_S128x12160_S128x128_0_2560 : ∀ a, (![0, 2560] : Fin 2 → Nat) a + S128x128.size a ≤ S128x12160.size a
  inb_S128x25600_S128x64_0_10368 : ∀ a, (![0, 10368] : Fin 2 → Nat) a + S128x64.size a ≤ S128x25600.size a
  inb_S128x25600_S128x64_0_3072 : ∀ a, (![0, 3072] : Fin 2 → Nat) a + S128x64.size a ≤ S128x25600.size a
  inb_S128x25600_S128x64_0_11648 : ∀ a, (![0, 11648] : Fin 2 → Nat) a + S128x64.size a ≤ S128x25600.size a
  inb_S128x25600_S128x64_0_3136 : ∀ a, (![0, 3136] : Fin 2 → Nat) a + S128x64.size a ≤ S128x25600.size a
  inb_S128x12160_S128x128_0_2688 : ∀ a, (![0, 2688] : Fin 2 → Nat) a + S128x128.size a ≤ S128x12160.size a
  inb_S128x25600_S128x64_0_12928 : ∀ a, (![0, 12928] : Fin 2 → Nat) a + S128x64.size a ≤ S128x25600.size a
  inb_S128x25600_S128x64_0_3200 : ∀ a, (![0, 3200] : Fin 2 → Nat) a + S128x64.size a ≤ S128x25600.size a
  inb_S128x25600_S128x64_0_14208 : ∀ a, (![0, 14208] : Fin 2 → Nat) a + S128x64.size a ≤ S128x25600.size a
  inb_S128x25600_S128x64_0_3264 : ∀ a, (![0, 3264] : Fin 2 → Nat) a + S128x64.size a ≤ S128x25600.size a
  inb_S128x12160_S128x128_0_2816 : ∀ a, (![0, 2816] : Fin 2 → Nat) a + S128x128.size a ≤ S128x12160.size a
  inb_S128x25600_S128x64_0_15488 : ∀ a, (![0, 15488] : Fin 2 → Nat) a + S128x64.size a ≤ S128x25600.size a
  inb_S128x25600_S128x64_0_3328 : ∀ a, (![0, 3328] : Fin 2 → Nat) a + S128x64.size a ≤ S128x25600.size a
  inb_S128x25600_S128x64_0_16768 : ∀ a, (![0, 16768] : Fin 2 → Nat) a + S128x64.size a ≤ S128x25600.size a
  inb_S128x25600_S128x64_0_3392 : ∀ a, (![0, 3392] : Fin 2 → Nat) a + S128x64.size a ≤ S128x25600.size a
  inb_S128x12160_S128x128_0_2944 : ∀ a, (![0, 2944] : Fin 2 → Nat) a + S128x128.size a ≤ S128x12160.size a
  inb_S128x25600_S128x64_0_18048 : ∀ a, (![0, 18048] : Fin 2 → Nat) a + S128x64.size a ≤ S128x25600.size a
  inb_S128x25600_S128x64_0_3456 : ∀ a, (![0, 3456] : Fin 2 → Nat) a + S128x64.size a ≤ S128x25600.size a
  inb_S128x25600_S128x64_0_19328 : ∀ a, (![0, 19328] : Fin 2 → Nat) a + S128x64.size a ≤ S128x25600.size a
  inb_S128x25600_S128x64_0_3520 : ∀ a, (![0, 3520] : Fin 2 → Nat) a + S128x64.size a ≤ S128x25600.size a
  inb_S128x12160_S128x128_0_3072 : ∀ a, (![0, 3072] : Fin 2 → Nat) a + S128x128.size a ≤ S128x12160.size a
  inb_S128x25600_S128x64_0_20608 : ∀ a, (![0, 20608] : Fin 2 → Nat) a + S128x64.size a ≤ S128x25600.size a
  inb_S128x25600_S128x64_0_3584 : ∀ a, (![0, 3584] : Fin 2 → Nat) a + S128x64.size a ≤ S128x25600.size a
  inb_S128x25600_S128x64_0_21888 : ∀ a, (![0, 21888] : Fin 2 → Nat) a + S128x64.size a ≤ S128x25600.size a
  inb_S128x25600_S128x64_0_3648 : ∀ a, (![0, 3648] : Fin 2 → Nat) a + S128x64.size a ≤ S128x25600.size a
  inb_S128x12160_S128x128_0_3200 : ∀ a, (![0, 3200] : Fin 2 → Nat) a + S128x128.size a ≤ S128x12160.size a
  inb_S128x25600_S128x64_0_23168 : ∀ a, (![0, 23168] : Fin 2 → Nat) a + S128x64.size a ≤ S128x25600.size a
  inb_S128x25600_S128x64_0_3712 : ∀ a, (![0, 3712] : Fin 2 → Nat) a + S128x64.size a ≤ S128x25600.size a
  inb_S128x25600_S128x64_0_24448 : ∀ a, (![0, 24448] : Fin 2 → Nat) a + S128x64.size a ≤ S128x25600.size a
  inb_S128x25600_S128x64_0_3776 : ∀ a, (![0, 3776] : Fin 2 → Nat) a + S128x64.size a ≤ S128x25600.size a
  inb_S128x12160_S128x128_0_3328 : ∀ a, (![0, 3328] : Fin 2 → Nat) a + S128x128.size a ≤ S128x12160.size a
  inb_S128x25600_S128x64_0_5312 : ∀ a, (![0, 5312] : Fin 2 → Nat) a + S128x64.size a ≤ S128x25600.size a
  inb_S128x25600_S128x64_0_4096 : ∀ a, (![0, 4096] : Fin 2 → Nat) a + S128x64.size a ≤ S128x25600.size a
  inb_S128x25600_S128x64_0_6592 : ∀ a, (![0, 6592] : Fin 2 → Nat) a + S128x64.size a ≤ S128x25600.size a
  inb_S128x25600_S128x64_0_4160 : ∀ a, (![0, 4160] : Fin 2 → Nat) a + S128x64.size a ≤ S128x25600.size a
  inb_S128x12160_S128x128_0_3456 : ∀ a, (![0, 3456] : Fin 2 → Nat) a + S128x128.size a ≤ S128x12160.size a
  inb_S128x25600_S128x64_0_7872 : ∀ a, (![0, 7872] : Fin 2 → Nat) a + S128x64.size a ≤ S128x25600.size a
  inb_S128x25600_S128x64_0_4224 : ∀ a, (![0, 4224] : Fin 2 → Nat) a + S128x64.size a ≤ S128x25600.size a
  inb_S128x25600_S128x64_0_9152 : ∀ a, (![0, 9152] : Fin 2 → Nat) a + S128x64.size a ≤ S128x25600.size a
  inb_S128x25600_S128x64_0_4288 : ∀ a, (![0, 4288] : Fin 2 → Nat) a + S128x64.size a ≤ S128x25600.size a
  inb_S128x12160_S128x128_0_3584 : ∀ a, (![0, 3584] : Fin 2 → Nat) a + S128x128.size a ≤ S128x12160.size a
  inb_S128x25600_S128x64_0_10432 : ∀ a, (![0, 10432] : Fin 2 → Nat) a + S128x64.size a ≤ S128x25600.size a
  inb_S128x25600_S128x64_0_4352 : ∀ a, (![0, 4352] : Fin 2 → Nat) a + S128x64.size a ≤ S128x25600.size a
  inb_S128x25600_S128x64_0_11712 : ∀ a, (![0, 11712] : Fin 2 → Nat) a + S128x64.size a ≤ S128x25600.size a
  inb_S128x25600_S128x64_0_4416 : ∀ a, (![0, 4416] : Fin 2 → Nat) a + S128x64.size a ≤ S128x25600.size a
  inb_S128x12160_S128x128_0_3712 : ∀ a, (![0, 3712] : Fin 2 → Nat) a + S128x128.size a ≤ S128x12160.size a
  inb_S128x25600_S128x64_0_12992 : ∀ a, (![0, 12992] : Fin 2 → Nat) a + S128x64.size a ≤ S128x25600.size a
  inb_S128x25600_S128x64_0_4480 : ∀ a, (![0, 4480] : Fin 2 → Nat) a + S128x64.size a ≤ S128x25600.size a
  inb_S128x25600_S128x64_0_14272 : ∀ a, (![0, 14272] : Fin 2 → Nat) a + S128x64.size a ≤ S128x25600.size a
  inb_S128x25600_S128x64_0_4544 : ∀ a, (![0, 4544] : Fin 2 → Nat) a + S128x64.size a ≤ S128x25600.size a
  inb_S128x12160_S128x128_0_3840 : ∀ a, (![0, 3840] : Fin 2 → Nat) a + S128x128.size a ≤ S128x12160.size a
  inb_S128x25600_S128x64_0_15552 : ∀ a, (![0, 15552] : Fin 2 → Nat) a + S128x64.size a ≤ S128x25600.size a
  inb_S128x25600_S128x64_0_4608 : ∀ a, (![0, 4608] : Fin 2 → Nat) a + S128x64.size a ≤ S128x25600.size a
  inb_S128x25600_S128x64_0_16832 : ∀ a, (![0, 16832] : Fin 2 → Nat) a + S128x64.size a ≤ S128x25600.size a
  inb_S128x25600_S128x64_0_4672 : ∀ a, (![0, 4672] : Fin 2 → Nat) a + S128x64.size a ≤ S128x25600.size a
  inb_S128x12160_S128x128_0_3968 : ∀ a, (![0, 3968] : Fin 2 → Nat) a + S128x128.size a ≤ S128x12160.size a
  inb_S128x25600_S128x64_0_18112 : ∀ a, (![0, 18112] : Fin 2 → Nat) a + S128x64.size a ≤ S128x25600.size a
  inb_S128x25600_S128x64_0_4736 : ∀ a, (![0, 4736] : Fin 2 → Nat) a + S128x64.size a ≤ S128x25600.size a
  inb_S128x25600_S128x64_0_19392 : ∀ a, (![0, 19392] : Fin 2 → Nat) a + S128x64.size a ≤ S128x25600.size a
  inb_S128x25600_S128x64_0_4800 : ∀ a, (![0, 4800] : Fin 2 → Nat) a + S128x64.size a ≤ S128x25600.size a
  inb_S128x12160_S128x128_0_4096 : ∀ a, (![0, 4096] : Fin 2 → Nat) a + S128x128.size a ≤ S128x12160.size a
  inb_S128x25600_S128x64_0_20672 : ∀ a, (![0, 20672] : Fin 2 → Nat) a + S128x64.size a ≤ S128x25600.size a
  inb_S128x25600_S128x64_0_4864 : ∀ a, (![0, 4864] : Fin 2 → Nat) a + S128x64.size a ≤ S128x25600.size a
  inb_S128x25600_S128x64_0_21952 : ∀ a, (![0, 21952] : Fin 2 → Nat) a + S128x64.size a ≤ S128x25600.size a
  inb_S128x25600_S128x64_0_4928 : ∀ a, (![0, 4928] : Fin 2 → Nat) a + S128x64.size a ≤ S128x25600.size a
  inb_S128x12160_S128x128_0_4224 : ∀ a, (![0, 4224] : Fin 2 → Nat) a + S128x128.size a ≤ S128x12160.size a
  inb_S128x25600_S128x64_0_23232 : ∀ a, (![0, 23232] : Fin 2 → Nat) a + S128x64.size a ≤ S128x25600.size a
  inb_S128x25600_S128x64_0_4992 : ∀ a, (![0, 4992] : Fin 2 → Nat) a + S128x64.size a ≤ S128x25600.size a
  inb_S128x25600_S128x64_0_24512 : ∀ a, (![0, 24512] : Fin 2 → Nat) a + S128x64.size a ≤ S128x25600.size a
  inb_S128x25600_S128x64_0_5056 : ∀ a, (![0, 5056] : Fin 2 → Nat) a + S128x64.size a ≤ S128x25600.size a
  inb_S128x12160_S128x128_0_4352 : ∀ a, (![0, 4352] : Fin 2 → Nat) a + S128x128.size a ≤ S128x12160.size a
  inb_S128x25600_S128x64_0_6656 : ∀ a, (![0, 6656] : Fin 2 → Nat) a + S128x64.size a ≤ S128x25600.size a
  inb_S128x25600_S128x64_0_5440 : ∀ a, (![0, 5440] : Fin 2 → Nat) a + S128x64.size a ≤ S128x25600.size a
  inb_S128x25600_S128x64_0_7936 : ∀ a, (![0, 7936] : Fin 2 → Nat) a + S128x64.size a ≤ S128x25600.size a
  inb_S128x25600_S128x64_0_5504 : ∀ a, (![0, 5504] : Fin 2 → Nat) a + S128x64.size a ≤ S128x25600.size a
  inb_S128x12160_S128x128_0_4480 : ∀ a, (![0, 4480] : Fin 2 → Nat) a + S128x128.size a ≤ S128x12160.size a
  inb_S128x25600_S128x64_0_9216 : ∀ a, (![0, 9216] : Fin 2 → Nat) a + S128x64.size a ≤ S128x25600.size a
  inb_S128x25600_S128x64_0_5568 : ∀ a, (![0, 5568] : Fin 2 → Nat) a + S128x64.size a ≤ S128x25600.size a
  inb_S128x25600_S128x64_0_10496 : ∀ a, (![0, 10496] : Fin 2 → Nat) a + S128x64.size a ≤ S128x25600.size a
  inb_S128x25600_S128x64_0_5632 : ∀ a, (![0, 5632] : Fin 2 → Nat) a + S128x64.size a ≤ S128x25600.size a
  inb_S128x12160_S128x128_0_4608 : ∀ a, (![0, 4608] : Fin 2 → Nat) a + S128x128.size a ≤ S128x12160.size a
  inb_S128x25600_S128x64_0_11776 : ∀ a, (![0, 11776] : Fin 2 → Nat) a + S128x64.size a ≤ S128x25600.size a
  inb_S128x25600_S128x64_0_5696 : ∀ a, (![0, 5696] : Fin 2 → Nat) a + S128x64.size a ≤ S128x25600.size a
  inb_S128x25600_S128x64_0_13056 : ∀ a, (![0, 13056] : Fin 2 → Nat) a + S128x64.size a ≤ S128x25600.size a
  inb_S128x25600_S128x64_0_5760 : ∀ a, (![0, 5760] : Fin 2 → Nat) a + S128x64.size a ≤ S128x25600.size a
  inb_S128x12160_S128x128_0_4736 : ∀ a, (![0, 4736] : Fin 2 → Nat) a + S128x128.size a ≤ S128x12160.size a
  inb_S128x25600_S128x64_0_14336 : ∀ a, (![0, 14336] : Fin 2 → Nat) a + S128x64.size a ≤ S128x25600.size a
  inb_S128x25600_S128x64_0_5824 : ∀ a, (![0, 5824] : Fin 2 → Nat) a + S128x64.size a ≤ S128x25600.size a
  inb_S128x25600_S128x64_0_15616 : ∀ a, (![0, 15616] : Fin 2 → Nat) a + S128x64.size a ≤ S128x25600.size a
  inb_S128x25600_S128x64_0_5888 : ∀ a, (![0, 5888] : Fin 2 → Nat) a + S128x64.size a ≤ S128x25600.size a
  inb_S128x12160_S128x128_0_4864 : ∀ a, (![0, 4864] : Fin 2 → Nat) a + S128x128.size a ≤ S128x12160.size a
  inb_S128x25600_S128x64_0_16896 : ∀ a, (![0, 16896] : Fin 2 → Nat) a + S128x64.size a ≤ S128x25600.size a
  inb_S128x25600_S128x64_0_5952 : ∀ a, (![0, 5952] : Fin 2 → Nat) a + S128x64.size a ≤ S128x25600.size a
  inb_S128x25600_S128x64_0_18176 : ∀ a, (![0, 18176] : Fin 2 → Nat) a + S128x64.size a ≤ S128x25600.size a
  inb_S128x25600_S128x64_0_6016 : ∀ a, (![0, 6016] : Fin 2 → Nat) a + S128x64.size a ≤ S128x25600.size a
  inb_S128x12160_S128x128_0_4992 : ∀ a, (![0, 4992] : Fin 2 → Nat) a + S128x128.size a ≤ S128x12160.size a
  inb_S128x25600_S128x64_0_19456 : ∀ a, (![0, 19456] : Fin 2 → Nat) a + S128x64.size a ≤ S128x25600.size a
  inb_S128x25600_S128x64_0_6080 : ∀ a, (![0, 6080] : Fin 2 → Nat) a + S128x64.size a ≤ S128x25600.size a
  inb_S128x25600_S128x64_0_20736 : ∀ a, (![0, 20736] : Fin 2 → Nat) a + S128x64.size a ≤ S128x25600.size a
  inb_S128x25600_S128x64_0_6144 : ∀ a, (![0, 6144] : Fin 2 → Nat) a + S128x64.size a ≤ S128x25600.size a
  inb_S128x12160_S128x128_0_5120 : ∀ a, (![0, 5120] : Fin 2 → Nat) a + S128x128.size a ≤ S128x12160.size a
  inb_S128x25600_S128x64_0_22016 : ∀ a, (![0, 22016] : Fin 2 → Nat) a + S128x64.size a ≤ S128x25600.size a
  inb_S128x25600_S128x64_0_6208 : ∀ a, (![0, 6208] : Fin 2 → Nat) a + S128x64.size a ≤ S128x25600.size a
  inb_S128x25600_S128x64_0_23296 : ∀ a, (![0, 23296] : Fin 2 → Nat) a + S128x64.size a ≤ S128x25600.size a
  inb_S128x25600_S128x64_0_6272 : ∀ a, (![0, 6272] : Fin 2 → Nat) a + S128x64.size a ≤ S128x25600.size a
  inb_S128x12160_S128x128_0_5248 : ∀ a, (![0, 5248] : Fin 2 → Nat) a + S128x128.size a ≤ S128x12160.size a
  inb_S128x25600_S128x64_0_24576 : ∀ a, (![0, 24576] : Fin 2 → Nat) a + S128x64.size a ≤ S128x25600.size a
  inb_S128x25600_S128x64_0_6336 : ∀ a, (![0, 6336] : Fin 2 → Nat) a + S128x64.size a ≤ S128x25600.size a
  inb_S128x25600_S128x64_0_8000 : ∀ a, (![0, 8000] : Fin 2 → Nat) a + S128x64.size a ≤ S128x25600.size a
  inb_S128x25600_S128x64_0_6784 : ∀ a, (![0, 6784] : Fin 2 → Nat) a + S128x64.size a ≤ S128x25600.size a
  inb_S128x12160_S128x128_0_5376 : ∀ a, (![0, 5376] : Fin 2 → Nat) a + S128x128.size a ≤ S128x12160.size a
  inb_S128x25600_S128x64_0_9280 : ∀ a, (![0, 9280] : Fin 2 → Nat) a + S128x64.size a ≤ S128x25600.size a
  inb_S128x25600_S128x64_0_6848 : ∀ a, (![0, 6848] : Fin 2 → Nat) a + S128x64.size a ≤ S128x25600.size a
  inb_S128x25600_S128x64_0_10560 : ∀ a, (![0, 10560] : Fin 2 → Nat) a + S128x64.size a ≤ S128x25600.size a
  inb_S128x25600_S128x64_0_6912 : ∀ a, (![0, 6912] : Fin 2 → Nat) a + S128x64.size a ≤ S128x25600.size a
  inb_S128x12160_S128x128_0_5504 : ∀ a, (![0, 5504] : Fin 2 → Nat) a + S128x128.size a ≤ S128x12160.size a
  inb_S128x25600_S128x64_0_11840 : ∀ a, (![0, 11840] : Fin 2 → Nat) a + S128x64.size a ≤ S128x25600.size a
  inb_S128x25600_S128x64_0_6976 : ∀ a, (![0, 6976] : Fin 2 → Nat) a + S128x64.size a ≤ S128x25600.size a
  inb_S128x25600_S128x64_0_13120 : ∀ a, (![0, 13120] : Fin 2 → Nat) a + S128x64.size a ≤ S128x25600.size a
  inb_S128x25600_S128x64_0_7040 : ∀ a, (![0, 7040] : Fin 2 → Nat) a + S128x64.size a ≤ S128x25600.size a
  inb_S128x12160_S128x128_0_5632 : ∀ a, (![0, 5632] : Fin 2 → Nat) a + S128x128.size a ≤ S128x12160.size a
  inb_S128x25600_S128x64_0_14400 : ∀ a, (![0, 14400] : Fin 2 → Nat) a + S128x64.size a ≤ S128x25600.size a
  inb_S128x25600_S128x64_0_7104 : ∀ a, (![0, 7104] : Fin 2 → Nat) a + S128x64.size a ≤ S128x25600.size a
  inb_S128x25600_S128x64_0_15680 : ∀ a, (![0, 15680] : Fin 2 → Nat) a + S128x64.size a ≤ S128x25600.size a
  inb_S128x25600_S128x64_0_7168 : ∀ a, (![0, 7168] : Fin 2 → Nat) a + S128x64.size a ≤ S128x25600.size a
  inb_S128x12160_S128x128_0_5760 : ∀ a, (![0, 5760] : Fin 2 → Nat) a + S128x128.size a ≤ S128x12160.size a
  inb_S128x25600_S128x64_0_16960 : ∀ a, (![0, 16960] : Fin 2 → Nat) a + S128x64.size a ≤ S128x25600.size a
  inb_S128x25600_S128x64_0_7232 : ∀ a, (![0, 7232] : Fin 2 → Nat) a + S128x64.size a ≤ S128x25600.size a
  inb_S128x25600_S128x64_0_18240 : ∀ a, (![0, 18240] : Fin 2 → Nat) a + S128x64.size a ≤ S128x25600.size a
  inb_S128x25600_S128x64_0_7296 : ∀ a, (![0, 7296] : Fin 2 → Nat) a + S128x64.size a ≤ S128x25600.size a
  inb_S128x12160_S128x128_0_5888 : ∀ a, (![0, 5888] : Fin 2 → Nat) a + S128x128.size a ≤ S128x12160.size a
  inb_S128x25600_S128x64_0_19520 : ∀ a, (![0, 19520] : Fin 2 → Nat) a + S128x64.size a ≤ S128x25600.size a
  inb_S128x25600_S128x64_0_7360 : ∀ a, (![0, 7360] : Fin 2 → Nat) a + S128x64.size a ≤ S128x25600.size a
  inb_S128x25600_S128x64_0_20800 : ∀ a, (![0, 20800] : Fin 2 → Nat) a + S128x64.size a ≤ S128x25600.size a
  inb_S128x25600_S128x64_0_7424 : ∀ a, (![0, 7424] : Fin 2 → Nat) a + S128x64.size a ≤ S128x25600.size a
  inb_S128x12160_S128x128_0_6016 : ∀ a, (![0, 6016] : Fin 2 → Nat) a + S128x128.size a ≤ S128x12160.size a
  inb_S128x25600_S128x64_0_22080 : ∀ a, (![0, 22080] : Fin 2 → Nat) a + S128x64.size a ≤ S128x25600.size a
  inb_S128x25600_S128x64_0_7488 : ∀ a, (![0, 7488] : Fin 2 → Nat) a + S128x64.size a ≤ S128x25600.size a
  inb_S128x25600_S128x64_0_23360 : ∀ a, (![0, 23360] : Fin 2 → Nat) a + S128x64.size a ≤ S128x25600.size a
  inb_S128x25600_S128x64_0_7552 : ∀ a, (![0, 7552] : Fin 2 → Nat) a + S128x64.size a ≤ S128x25600.size a
  inb_S128x12160_S128x128_0_6144 : ∀ a, (![0, 6144] : Fin 2 → Nat) a + S128x128.size a ≤ S128x12160.size a
  inb_S128x25600_S128x64_0_24640 : ∀ a, (![0, 24640] : Fin 2 → Nat) a + S128x64.size a ≤ S128x25600.size a
  inb_S128x25600_S128x64_0_7616 : ∀ a, (![0, 7616] : Fin 2 → Nat) a + S128x64.size a ≤ S128x25600.size a
  inb_S128x25600_S128x64_0_9344 : ∀ a, (![0, 9344] : Fin 2 → Nat) a + S128x64.size a ≤ S128x25600.size a
  inb_S128x25600_S128x64_0_8128 : ∀ a, (![0, 8128] : Fin 2 → Nat) a + S128x64.size a ≤ S128x25600.size a
  inb_S128x12160_S128x128_0_6272 : ∀ a, (![0, 6272] : Fin 2 → Nat) a + S128x128.size a ≤ S128x12160.size a
  inb_S128x25600_S128x64_0_10624 : ∀ a, (![0, 10624] : Fin 2 → Nat) a + S128x64.size a ≤ S128x25600.size a
  inb_S128x25600_S128x64_0_8192 : ∀ a, (![0, 8192] : Fin 2 → Nat) a + S128x64.size a ≤ S128x25600.size a
  inb_S128x25600_S128x64_0_11904 : ∀ a, (![0, 11904] : Fin 2 → Nat) a + S128x64.size a ≤ S128x25600.size a
  inb_S128x25600_S128x64_0_8256 : ∀ a, (![0, 8256] : Fin 2 → Nat) a + S128x64.size a ≤ S128x25600.size a
  inb_S128x12160_S128x128_0_6400 : ∀ a, (![0, 6400] : Fin 2 → Nat) a + S128x128.size a ≤ S128x12160.size a
  inb_S128x25600_S128x64_0_13184 : ∀ a, (![0, 13184] : Fin 2 → Nat) a + S128x64.size a ≤ S128x25600.size a
  inb_S128x25600_S128x64_0_8320 : ∀ a, (![0, 8320] : Fin 2 → Nat) a + S128x64.size a ≤ S128x25600.size a
  inb_S128x25600_S128x64_0_14464 : ∀ a, (![0, 14464] : Fin 2 → Nat) a + S128x64.size a ≤ S128x25600.size a
  inb_S128x25600_S128x64_0_8384 : ∀ a, (![0, 8384] : Fin 2 → Nat) a + S128x64.size a ≤ S128x25600.size a
  inb_S128x12160_S128x128_0_6528 : ∀ a, (![0, 6528] : Fin 2 → Nat) a + S128x128.size a ≤ S128x12160.size a
  inb_S128x25600_S128x64_0_15744 : ∀ a, (![0, 15744] : Fin 2 → Nat) a + S128x64.size a ≤ S128x25600.size a
  inb_S128x25600_S128x64_0_8448 : ∀ a, (![0, 8448] : Fin 2 → Nat) a + S128x64.size a ≤ S128x25600.size a
  inb_S128x25600_S128x64_0_17024 : ∀ a, (![0, 17024] : Fin 2 → Nat) a + S128x64.size a ≤ S128x25600.size a
  inb_S128x25600_S128x64_0_8512 : ∀ a, (![0, 8512] : Fin 2 → Nat) a + S128x64.size a ≤ S128x25600.size a
  inb_S128x12160_S128x128_0_6656 : ∀ a, (![0, 6656] : Fin 2 → Nat) a + S128x128.size a ≤ S128x12160.size a
  inb_S128x25600_S128x64_0_18304 : ∀ a, (![0, 18304] : Fin 2 → Nat) a + S128x64.size a ≤ S128x25600.size a
  inb_S128x25600_S128x64_0_8576 : ∀ a, (![0, 8576] : Fin 2 → Nat) a + S128x64.size a ≤ S128x25600.size a
  inb_S128x25600_S128x64_0_19584 : ∀ a, (![0, 19584] : Fin 2 → Nat) a + S128x64.size a ≤ S128x25600.size a
  inb_S128x25600_S128x64_0_8640 : ∀ a, (![0, 8640] : Fin 2 → Nat) a + S128x64.size a ≤ S128x25600.size a
  inb_S128x12160_S128x128_0_6784 : ∀ a, (![0, 6784] : Fin 2 → Nat) a + S128x128.size a ≤ S128x12160.size a
  inb_S128x25600_S128x64_0_20864 : ∀ a, (![0, 20864] : Fin 2 → Nat) a + S128x64.size a ≤ S128x25600.size a
  inb_S128x25600_S128x64_0_8704 : ∀ a, (![0, 8704] : Fin 2 → Nat) a + S128x64.size a ≤ S128x25600.size a
  inb_S128x25600_S128x64_0_22144 : ∀ a, (![0, 22144] : Fin 2 → Nat) a + S128x64.size a ≤ S128x25600.size a
  inb_S128x25600_S128x64_0_8768 : ∀ a, (![0, 8768] : Fin 2 → Nat) a + S128x64.size a ≤ S128x25600.size a
  inb_S128x12160_S128x128_0_6912 : ∀ a, (![0, 6912] : Fin 2 → Nat) a + S128x128.size a ≤ S128x12160.size a
  inb_S128x25600_S128x64_0_23424 : ∀ a, (![0, 23424] : Fin 2 → Nat) a + S128x64.size a ≤ S128x25600.size a
  inb_S128x25600_S128x64_0_8832 : ∀ a, (![0, 8832] : Fin 2 → Nat) a + S128x64.size a ≤ S128x25600.size a
  inb_S128x25600_S128x64_0_24704 : ∀ a, (![0, 24704] : Fin 2 → Nat) a + S128x64.size a ≤ S128x25600.size a
  inb_S128x25600_S128x64_0_8896 : ∀ a, (![0, 8896] : Fin 2 → Nat) a + S128x64.size a ≤ S128x25600.size a
  inb_S128x12160_S128x128_0_7040 : ∀ a, (![0, 7040] : Fin 2 → Nat) a + S128x128.size a ≤ S128x12160.size a
  inb_S128x25600_S128x64_0_10688 : ∀ a, (![0, 10688] : Fin 2 → Nat) a + S128x64.size a ≤ S128x25600.size a
  inb_S128x25600_S128x64_0_9472 : ∀ a, (![0, 9472] : Fin 2 → Nat) a + S128x64.size a ≤ S128x25600.size a
  inb_S128x25600_S128x64_0_11968 : ∀ a, (![0, 11968] : Fin 2 → Nat) a + S128x64.size a ≤ S128x25600.size a
  inb_S128x25600_S128x64_0_9536 : ∀ a, (![0, 9536] : Fin 2 → Nat) a + S128x64.size a ≤ S128x25600.size a
  inb_S128x12160_S128x128_0_7168 : ∀ a, (![0, 7168] : Fin 2 → Nat) a + S128x128.size a ≤ S128x12160.size a
  inb_S128x25600_S128x64_0_13248 : ∀ a, (![0, 13248] : Fin 2 → Nat) a + S128x64.size a ≤ S128x25600.size a
  inb_S128x25600_S128x64_0_9600 : ∀ a, (![0, 9600] : Fin 2 → Nat) a + S128x64.size a ≤ S128x25600.size a
  inb_S128x25600_S128x64_0_14528 : ∀ a, (![0, 14528] : Fin 2 → Nat) a + S128x64.size a ≤ S128x25600.size a
  inb_S128x25600_S128x64_0_9664 : ∀ a, (![0, 9664] : Fin 2 → Nat) a + S128x64.size a ≤ S128x25600.size a
  inb_S128x12160_S128x128_0_7296 : ∀ a, (![0, 7296] : Fin 2 → Nat) a + S128x128.size a ≤ S128x12160.size a
  inb_S128x25600_S128x64_0_15808 : ∀ a, (![0, 15808] : Fin 2 → Nat) a + S128x64.size a ≤ S128x25600.size a
  inb_S128x25600_S128x64_0_9728 : ∀ a, (![0, 9728] : Fin 2 → Nat) a + S128x64.size a ≤ S128x25600.size a
  inb_S128x25600_S128x64_0_17088 : ∀ a, (![0, 17088] : Fin 2 → Nat) a + S128x64.size a ≤ S128x25600.size a
  inb_S128x25600_S128x64_0_9792 : ∀ a, (![0, 9792] : Fin 2 → Nat) a + S128x64.size a ≤ S128x25600.size a
  inb_S128x12160_S128x128_0_7424 : ∀ a, (![0, 7424] : Fin 2 → Nat) a + S128x128.size a ≤ S128x12160.size a
  inb_S128x25600_S128x64_0_18368 : ∀ a, (![0, 18368] : Fin 2 → Nat) a + S128x64.size a ≤ S128x25600.size a
  inb_S128x25600_S128x64_0_9856 : ∀ a, (![0, 9856] : Fin 2 → Nat) a + S128x64.size a ≤ S128x25600.size a
  inb_S128x25600_S128x64_0_19648 : ∀ a, (![0, 19648] : Fin 2 → Nat) a + S128x64.size a ≤ S128x25600.size a
  inb_S128x25600_S128x64_0_9920 : ∀ a, (![0, 9920] : Fin 2 → Nat) a + S128x64.size a ≤ S128x25600.size a
  inb_S128x12160_S128x128_0_7552 : ∀ a, (![0, 7552] : Fin 2 → Nat) a + S128x128.size a ≤ S128x12160.size a
  inb_S128x25600_S128x64_0_20928 : ∀ a, (![0, 20928] : Fin 2 → Nat) a + S128x64.size a ≤ S128x25600.size a
  inb_S128x25600_S128x64_0_9984 : ∀ a, (![0, 9984] : Fin 2 → Nat) a + S128x64.size a ≤ S128x25600.size a
  inb_S128x25600_S128x64_0_22208 : ∀ a, (![0, 22208] : Fin 2 → Nat) a + S128x64.size a ≤ S128x25600.size a
  inb_S128x25600_S128x64_0_10048 : ∀ a, (![0, 10048] : Fin 2 → Nat) a + S128x64.size a ≤ S128x25600.size a
  inb_S128x12160_S128x128_0_7680 : ∀ a, (![0, 7680] : Fin 2 → Nat) a + S128x128.size a ≤ S128x12160.size a
  inb_S128x25600_S128x64_0_23488 : ∀ a, (![0, 23488] : Fin 2 → Nat) a + S128x64.size a ≤ S128x25600.size a
  inb_S128x25600_S128x64_0_10112 : ∀ a, (![0, 10112] : Fin 2 → Nat) a + S128x64.size a ≤ S128x25600.size a
  inb_S128x25600_S128x64_0_24768 : ∀ a, (![0, 24768] : Fin 2 → Nat) a + S128x64.size a ≤ S128x25600.size a
  inb_S128x25600_S128x64_0_10176 : ∀ a, (![0, 10176] : Fin 2 → Nat) a + S128x64.size a ≤ S128x25600.size a
  inb_S128x12160_S128x128_0_7808 : ∀ a, (![0, 7808] : Fin 2 → Nat) a + S128x128.size a ≤ S128x12160.size a
  inb_S128x25600_S128x64_0_12032 : ∀ a, (![0, 12032] : Fin 2 → Nat) a + S128x64.size a ≤ S128x25600.size a
  inb_S128x25600_S128x64_0_10816 : ∀ a, (![0, 10816] : Fin 2 → Nat) a + S128x64.size a ≤ S128x25600.size a
  inb_S128x25600_S128x64_0_13312 : ∀ a, (![0, 13312] : Fin 2 → Nat) a + S128x64.size a ≤ S128x25600.size a
  inb_S128x25600_S128x64_0_10880 : ∀ a, (![0, 10880] : Fin 2 → Nat) a + S128x64.size a ≤ S128x25600.size a
  inb_S128x12160_S128x128_0_7936 : ∀ a, (![0, 7936] : Fin 2 → Nat) a + S128x128.size a ≤ S128x12160.size a
  inb_S128x25600_S128x64_0_14592 : ∀ a, (![0, 14592] : Fin 2 → Nat) a + S128x64.size a ≤ S128x25600.size a
  inb_S128x25600_S128x64_0_10944 : ∀ a, (![0, 10944] : Fin 2 → Nat) a + S128x64.size a ≤ S128x25600.size a
  inb_S128x25600_S128x64_0_15872 : ∀ a, (![0, 15872] : Fin 2 → Nat) a + S128x64.size a ≤ S128x25600.size a
  inb_S128x25600_S128x64_0_11008 : ∀ a, (![0, 11008] : Fin 2 → Nat) a + S128x64.size a ≤ S128x25600.size a
  inb_S128x12160_S128x128_0_8064 : ∀ a, (![0, 8064] : Fin 2 → Nat) a + S128x128.size a ≤ S128x12160.size a
  inb_S128x25600_S128x64_0_17152 : ∀ a, (![0, 17152] : Fin 2 → Nat) a + S128x64.size a ≤ S128x25600.size a
  inb_S128x25600_S128x64_0_11072 : ∀ a, (![0, 11072] : Fin 2 → Nat) a + S128x64.size a ≤ S128x25600.size a
  inb_S128x25600_S128x64_0_18432 : ∀ a, (![0, 18432] : Fin 2 → Nat) a + S128x64.size a ≤ S128x25600.size a
  inb_S128x25600_S128x64_0_11136 : ∀ a, (![0, 11136] : Fin 2 → Nat) a + S128x64.size a ≤ S128x25600.size a
  inb_S128x12160_S128x128_0_8192 : ∀ a, (![0, 8192] : Fin 2 → Nat) a + S128x128.size a ≤ S128x12160.size a
  inb_S128x25600_S128x64_0_19712 : ∀ a, (![0, 19712] : Fin 2 → Nat) a + S128x64.size a ≤ S128x25600.size a
  inb_S128x25600_S128x64_0_11200 : ∀ a, (![0, 11200] : Fin 2 → Nat) a + S128x64.size a ≤ S128x25600.size a
  inb_S128x25600_S128x64_0_20992 : ∀ a, (![0, 20992] : Fin 2 → Nat) a + S128x64.size a ≤ S128x25600.size a
  inb_S128x25600_S128x64_0_11264 : ∀ a, (![0, 11264] : Fin 2 → Nat) a + S128x64.size a ≤ S128x25600.size a
  inb_S128x12160_S128x128_0_8320 : ∀ a, (![0, 8320] : Fin 2 → Nat) a + S128x128.size a ≤ S128x12160.size a
  inb_S128x25600_S128x64_0_22272 : ∀ a, (![0, 22272] : Fin 2 → Nat) a + S128x64.size a ≤ S128x25600.size a
  inb_S128x25600_S128x64_0_11328 : ∀ a, (![0, 11328] : Fin 2 → Nat) a + S128x64.size a ≤ S128x25600.size a
  inb_S128x25600_S128x64_0_23552 : ∀ a, (![0, 23552] : Fin 2 → Nat) a + S128x64.size a ≤ S128x25600.size a
  inb_S128x25600_S128x64_0_11392 : ∀ a, (![0, 11392] : Fin 2 → Nat) a + S128x64.size a ≤ S128x25600.size a
  inb_S128x12160_S128x128_0_8448 : ∀ a, (![0, 8448] : Fin 2 → Nat) a + S128x128.size a ≤ S128x12160.size a
  inb_S128x25600_S128x64_0_24832 : ∀ a, (![0, 24832] : Fin 2 → Nat) a + S128x64.size a ≤ S128x25600.size a
  inb_S128x25600_S128x64_0_11456 : ∀ a, (![0, 11456] : Fin 2 → Nat) a + S128x64.size a ≤ S128x25600.size a
  inb_S128x25600_S128x64_0_13376 : ∀ a, (![0, 13376] : Fin 2 → Nat) a + S128x64.size a ≤ S128x25600.size a
  inb_S128x25600_S128x64_0_12160 : ∀ a, (![0, 12160] : Fin 2 → Nat) a + S128x64.size a ≤ S128x25600.size a
  inb_S128x12160_S128x128_0_8576 : ∀ a, (![0, 8576] : Fin 2 → Nat) a + S128x128.size a ≤ S128x12160.size a
  inb_S128x25600_S128x64_0_14656 : ∀ a, (![0, 14656] : Fin 2 → Nat) a + S128x64.size a ≤ S128x25600.size a
  inb_S128x25600_S128x64_0_12224 : ∀ a, (![0, 12224] : Fin 2 → Nat) a + S128x64.size a ≤ S128x25600.size a
  inb_S128x25600_S128x64_0_15936 : ∀ a, (![0, 15936] : Fin 2 → Nat) a + S128x64.size a ≤ S128x25600.size a
  inb_S128x25600_S128x64_0_12288 : ∀ a, (![0, 12288] : Fin 2 → Nat) a + S128x64.size a ≤ S128x25600.size a
  inb_S128x12160_S128x128_0_8704 : ∀ a, (![0, 8704] : Fin 2 → Nat) a + S128x128.size a ≤ S128x12160.size a
  inb_S128x25600_S128x64_0_17216 : ∀ a, (![0, 17216] : Fin 2 → Nat) a + S128x64.size a ≤ S128x25600.size a
  inb_S128x25600_S128x64_0_12352 : ∀ a, (![0, 12352] : Fin 2 → Nat) a + S128x64.size a ≤ S128x25600.size a
  inb_S128x25600_S128x64_0_18496 : ∀ a, (![0, 18496] : Fin 2 → Nat) a + S128x64.size a ≤ S128x25600.size a
  inb_S128x25600_S128x64_0_12416 : ∀ a, (![0, 12416] : Fin 2 → Nat) a + S128x64.size a ≤ S128x25600.size a
  inb_S128x12160_S128x128_0_8832 : ∀ a, (![0, 8832] : Fin 2 → Nat) a + S128x128.size a ≤ S128x12160.size a
  inb_S128x25600_S128x64_0_19776 : ∀ a, (![0, 19776] : Fin 2 → Nat) a + S128x64.size a ≤ S128x25600.size a
  inb_S128x25600_S128x64_0_12480 : ∀ a, (![0, 12480] : Fin 2 → Nat) a + S128x64.size a ≤ S128x25600.size a
  inb_S128x25600_S128x64_0_21056 : ∀ a, (![0, 21056] : Fin 2 → Nat) a + S128x64.size a ≤ S128x25600.size a
  inb_S128x25600_S128x64_0_12544 : ∀ a, (![0, 12544] : Fin 2 → Nat) a + S128x64.size a ≤ S128x25600.size a
  inb_S128x12160_S128x128_0_8960 : ∀ a, (![0, 8960] : Fin 2 → Nat) a + S128x128.size a ≤ S128x12160.size a
  inb_S128x25600_S128x64_0_22336 : ∀ a, (![0, 22336] : Fin 2 → Nat) a + S128x64.size a ≤ S128x25600.size a
  inb_S128x25600_S128x64_0_12608 : ∀ a, (![0, 12608] : Fin 2 → Nat) a + S128x64.size a ≤ S128x25600.size a
  inb_S128x25600_S128x64_0_23616 : ∀ a, (![0, 23616] : Fin 2 → Nat) a + S128x64.size a ≤ S128x25600.size a
  inb_S128x25600_S128x64_0_12672 : ∀ a, (![0, 12672] : Fin 2 → Nat) a + S128x64.size a ≤ S128x25600.size a
  inb_S128x12160_S128x128_0_9088 : ∀ a, (![0, 9088] : Fin 2 → Nat) a + S128x128.size a ≤ S128x12160.size a
  inb_S128x25600_S128x64_0_24896 : ∀ a, (![0, 24896] : Fin 2 → Nat) a + S128x64.size a ≤ S128x25600.size a
  inb_S128x25600_S128x64_0_12736 : ∀ a, (![0, 12736] : Fin 2 → Nat) a + S128x64.size a ≤ S128x25600.size a
  inb_S128x25600_S128x64_0_14720 : ∀ a, (![0, 14720] : Fin 2 → Nat) a + S128x64.size a ≤ S128x25600.size a
  inb_S128x25600_S128x64_0_13504 : ∀ a, (![0, 13504] : Fin 2 → Nat) a + S128x64.size a ≤ S128x25600.size a
  inb_S128x12160_S128x128_0_9216 : ∀ a, (![0, 9216] : Fin 2 → Nat) a + S128x128.size a ≤ S128x12160.size a
  inb_S128x25600_S128x64_0_16000 : ∀ a, (![0, 16000] : Fin 2 → Nat) a + S128x64.size a ≤ S128x25600.size a
  inb_S128x25600_S128x64_0_13568 : ∀ a, (![0, 13568] : Fin 2 → Nat) a + S128x64.size a ≤ S128x25600.size a
  inb_S128x25600_S128x64_0_17280 : ∀ a, (![0, 17280] : Fin 2 → Nat) a + S128x64.size a ≤ S128x25600.size a
  inb_S128x25600_S128x64_0_13632 : ∀ a, (![0, 13632] : Fin 2 → Nat) a + S128x64.size a ≤ S128x25600.size a
  inb_S128x12160_S128x128_0_9344 : ∀ a, (![0, 9344] : Fin 2 → Nat) a + S128x128.size a ≤ S128x12160.size a
  inb_S128x25600_S128x64_0_18560 : ∀ a, (![0, 18560] : Fin 2 → Nat) a + S128x64.size a ≤ S128x25600.size a
  inb_S128x25600_S128x64_0_13696 : ∀ a, (![0, 13696] : Fin 2 → Nat) a + S128x64.size a ≤ S128x25600.size a
  inb_S128x25600_S128x64_0_19840 : ∀ a, (![0, 19840] : Fin 2 → Nat) a + S128x64.size a ≤ S128x25600.size a
  inb_S128x25600_S128x64_0_13760 : ∀ a, (![0, 13760] : Fin 2 → Nat) a + S128x64.size a ≤ S128x25600.size a
  inb_S128x12160_S128x128_0_9472 : ∀ a, (![0, 9472] : Fin 2 → Nat) a + S128x128.size a ≤ S128x12160.size a
  inb_S128x25600_S128x64_0_21120 : ∀ a, (![0, 21120] : Fin 2 → Nat) a + S128x64.size a ≤ S128x25600.size a
  inb_S128x25600_S128x64_0_13824 : ∀ a, (![0, 13824] : Fin 2 → Nat) a + S128x64.size a ≤ S128x25600.size a
  inb_S128x25600_S128x64_0_22400 : ∀ a, (![0, 22400] : Fin 2 → Nat) a + S128x64.size a ≤ S128x25600.size a
  inb_S128x25600_S128x64_0_13888 : ∀ a, (![0, 13888] : Fin 2 → Nat) a + S128x64.size a ≤ S128x25600.size a
  inb_S128x12160_S128x128_0_9600 : ∀ a, (![0, 9600] : Fin 2 → Nat) a + S128x128.size a ≤ S128x12160.size a
  inb_S128x25600_S128x64_0_23680 : ∀ a, (![0, 23680] : Fin 2 → Nat) a + S128x64.size a ≤ S128x25600.size a
  inb_S128x25600_S128x64_0_13952 : ∀ a, (![0, 13952] : Fin 2 → Nat) a + S128x64.size a ≤ S128x25600.size a
  inb_S128x25600_S128x64_0_24960 : ∀ a, (![0, 24960] : Fin 2 → Nat) a + S128x64.size a ≤ S128x25600.size a
  inb_S128x25600_S128x64_0_14016 : ∀ a, (![0, 14016] : Fin 2 → Nat) a + S128x64.size a ≤ S128x25600.size a
  inb_S128x12160_S128x128_0_9728 : ∀ a, (![0, 9728] : Fin 2 → Nat) a + S128x128.size a ≤ S128x12160.size a
  inb_S128x25600_S128x64_0_16064 : ∀ a, (![0, 16064] : Fin 2 → Nat) a + S128x64.size a ≤ S128x25600.size a
  inb_S128x25600_S128x64_0_14848 : ∀ a, (![0, 14848] : Fin 2 → Nat) a + S128x64.size a ≤ S128x25600.size a
  inb_S128x25600_S128x64_0_17344 : ∀ a, (![0, 17344] : Fin 2 → Nat) a + S128x64.size a ≤ S128x25600.size a
  inb_S128x25600_S128x64_0_14912 : ∀ a, (![0, 14912] : Fin 2 → Nat) a + S128x64.size a ≤ S128x25600.size a
  inb_S128x12160_S128x128_0_9856 : ∀ a, (![0, 9856] : Fin 2 → Nat) a + S128x128.size a ≤ S128x12160.size a
  inb_S128x25600_S128x64_0_18624 : ∀ a, (![0, 18624] : Fin 2 → Nat) a + S128x64.size a ≤ S128x25600.size a
  inb_S128x25600_S128x64_0_14976 : ∀ a, (![0, 14976] : Fin 2 → Nat) a + S128x64.size a ≤ S128x25600.size a
  inb_S128x25600_S128x64_0_19904 : ∀ a, (![0, 19904] : Fin 2 → Nat) a + S128x64.size a ≤ S128x25600.size a
  inb_S128x25600_S128x64_0_15040 : ∀ a, (![0, 15040] : Fin 2 → Nat) a + S128x64.size a ≤ S128x25600.size a
  inb_S128x12160_S128x128_0_9984 : ∀ a, (![0, 9984] : Fin 2 → Nat) a + S128x128.size a ≤ S128x12160.size a
  inb_S128x25600_S128x64_0_21184 : ∀ a, (![0, 21184] : Fin 2 → Nat) a + S128x64.size a ≤ S128x25600.size a
  inb_S128x25600_S128x64_0_15104 : ∀ a, (![0, 15104] : Fin 2 → Nat) a + S128x64.size a ≤ S128x25600.size a
  inb_S128x25600_S128x64_0_22464 : ∀ a, (![0, 22464] : Fin 2 → Nat) a + S128x64.size a ≤ S128x25600.size a
  inb_S128x25600_S128x64_0_15168 : ∀ a, (![0, 15168] : Fin 2 → Nat) a + S128x64.size a ≤ S128x25600.size a
  inb_S128x12160_S128x128_0_10112 : ∀ a, (![0, 10112] : Fin 2 → Nat) a + S128x128.size a ≤ S128x12160.size a
  inb_S128x25600_S128x64_0_23744 : ∀ a, (![0, 23744] : Fin 2 → Nat) a + S128x64.size a ≤ S128x25600.size a
  inb_S128x25600_S128x64_0_15232 : ∀ a, (![0, 15232] : Fin 2 → Nat) a + S128x64.size a ≤ S128x25600.size a
  inb_S128x25600_S128x64_0_25024 : ∀ a, (![0, 25024] : Fin 2 → Nat) a + S128x64.size a ≤ S128x25600.size a
  inb_S128x25600_S128x64_0_15296 : ∀ a, (![0, 15296] : Fin 2 → Nat) a + S128x64.size a ≤ S128x25600.size a
  inb_S128x12160_S128x128_0_10240 : ∀ a, (![0, 10240] : Fin 2 → Nat) a + S128x128.size a ≤ S128x12160.size a
  inb_S128x25600_S128x64_0_17408 : ∀ a, (![0, 17408] : Fin 2 → Nat) a + S128x64.size a ≤ S128x25600.size a
  inb_S128x25600_S128x64_0_16192 : ∀ a, (![0, 16192] : Fin 2 → Nat) a + S128x64.size a ≤ S128x25600.size a
  inb_S128x25600_S128x64_0_18688 : ∀ a, (![0, 18688] : Fin 2 → Nat) a + S128x64.size a ≤ S128x25600.size a
  inb_S128x25600_S128x64_0_16256 : ∀ a, (![0, 16256] : Fin 2 → Nat) a + S128x64.size a ≤ S128x25600.size a
  inb_S128x12160_S128x128_0_10368 : ∀ a, (![0, 10368] : Fin 2 → Nat) a + S128x128.size a ≤ S128x12160.size a
  inb_S128x25600_S128x64_0_19968 : ∀ a, (![0, 19968] : Fin 2 → Nat) a + S128x64.size a ≤ S128x25600.size a
  inb_S128x25600_S128x64_0_16320 : ∀ a, (![0, 16320] : Fin 2 → Nat) a + S128x64.size a ≤ S128x25600.size a
  inb_S128x25600_S128x64_0_21248 : ∀ a, (![0, 21248] : Fin 2 → Nat) a + S128x64.size a ≤ S128x25600.size a
  inb_S128x25600_S128x64_0_16384 : ∀ a, (![0, 16384] : Fin 2 → Nat) a + S128x64.size a ≤ S128x25600.size a
  inb_S128x12160_S128x128_0_10496 : ∀ a, (![0, 10496] : Fin 2 → Nat) a + S128x128.size a ≤ S128x12160.size a
  inb_S128x25600_S128x64_0_22528 : ∀ a, (![0, 22528] : Fin 2 → Nat) a + S128x64.size a ≤ S128x25600.size a
  inb_S128x25600_S128x64_0_16448 : ∀ a, (![0, 16448] : Fin 2 → Nat) a + S128x64.size a ≤ S128x25600.size a
  inb_S128x25600_S128x64_0_23808 : ∀ a, (![0, 23808] : Fin 2 → Nat) a + S128x64.size a ≤ S128x25600.size a
  inb_S128x25600_S128x64_0_16512 : ∀ a, (![0, 16512] : Fin 2 → Nat) a + S128x64.size a ≤ S128x25600.size a
  inb_S128x12160_S128x128_0_10624 : ∀ a, (![0, 10624] : Fin 2 → Nat) a + S128x128.size a ≤ S128x12160.size a
  inb_S128x25600_S128x64_0_25088 : ∀ a, (![0, 25088] : Fin 2 → Nat) a + S128x64.size a ≤ S128x25600.size a
  inb_S128x25600_S128x64_0_16576 : ∀ a, (![0, 16576] : Fin 2 → Nat) a + S128x64.size a ≤ S128x25600.size a
  inb_S128x25600_S128x64_0_18752 : ∀ a, (![0, 18752] : Fin 2 → Nat) a + S128x64.size a ≤ S128x25600.size a
  inb_S128x25600_S128x64_0_17536 : ∀ a, (![0, 17536] : Fin 2 → Nat) a + S128x64.size a ≤ S128x25600.size a
  inb_S128x12160_S128x128_0_10752 : ∀ a, (![0, 10752] : Fin 2 → Nat) a + S128x128.size a ≤ S128x12160.size a
  inb_S128x25600_S128x64_0_20032 : ∀ a, (![0, 20032] : Fin 2 → Nat) a + S128x64.size a ≤ S128x25600.size a
  inb_S128x25600_S128x64_0_17600 : ∀ a, (![0, 17600] : Fin 2 → Nat) a + S128x64.size a ≤ S128x25600.size a
  inb_S128x25600_S128x64_0_21312 : ∀ a, (![0, 21312] : Fin 2 → Nat) a + S128x64.size a ≤ S128x25600.size a
  inb_S128x25600_S128x64_0_17664 : ∀ a, (![0, 17664] : Fin 2 → Nat) a + S128x64.size a ≤ S128x25600.size a
  inb_S128x12160_S128x128_0_10880 : ∀ a, (![0, 10880] : Fin 2 → Nat) a + S128x128.size a ≤ S128x12160.size a
  inb_S128x25600_S128x64_0_22592 : ∀ a, (![0, 22592] : Fin 2 → Nat) a + S128x64.size a ≤ S128x25600.size a
  inb_S128x25600_S128x64_0_17728 : ∀ a, (![0, 17728] : Fin 2 → Nat) a + S128x64.size a ≤ S128x25600.size a
  inb_S128x25600_S128x64_0_23872 : ∀ a, (![0, 23872] : Fin 2 → Nat) a + S128x64.size a ≤ S128x25600.size a
  inb_S128x25600_S128x64_0_17792 : ∀ a, (![0, 17792] : Fin 2 → Nat) a + S128x64.size a ≤ S128x25600.size a
  inb_S128x12160_S128x128_0_11008 : ∀ a, (![0, 11008] : Fin 2 → Nat) a + S128x128.size a ≤ S128x12160.size a
  inb_S128x25600_S128x64_0_25152 : ∀ a, (![0, 25152] : Fin 2 → Nat) a + S128x64.size a ≤ S128x25600.size a
  inb_S128x25600_S128x64_0_17856 : ∀ a, (![0, 17856] : Fin 2 → Nat) a + S128x64.size a ≤ S128x25600.size a
  inb_S128x25600_S128x64_0_20096 : ∀ a, (![0, 20096] : Fin 2 → Nat) a + S128x64.size a ≤ S128x25600.size a
  inb_S128x25600_S128x64_0_18880 : ∀ a, (![0, 18880] : Fin 2 → Nat) a + S128x64.size a ≤ S128x25600.size a
  inb_S128x12160_S128x128_0_11136 : ∀ a, (![0, 11136] : Fin 2 → Nat) a + S128x128.size a ≤ S128x12160.size a
  inb_S128x25600_S128x64_0_21376 : ∀ a, (![0, 21376] : Fin 2 → Nat) a + S128x64.size a ≤ S128x25600.size a
  inb_S128x25600_S128x64_0_18944 : ∀ a, (![0, 18944] : Fin 2 → Nat) a + S128x64.size a ≤ S128x25600.size a
  inb_S128x25600_S128x64_0_22656 : ∀ a, (![0, 22656] : Fin 2 → Nat) a + S128x64.size a ≤ S128x25600.size a
  inb_S128x25600_S128x64_0_19008 : ∀ a, (![0, 19008] : Fin 2 → Nat) a + S128x64.size a ≤ S128x25600.size a
  inb_S128x12160_S128x128_0_11264 : ∀ a, (![0, 11264] : Fin 2 → Nat) a + S128x128.size a ≤ S128x12160.size a
  inb_S128x25600_S128x64_0_23936 : ∀ a, (![0, 23936] : Fin 2 → Nat) a + S128x64.size a ≤ S128x25600.size a
  inb_S128x25600_S128x64_0_19072 : ∀ a, (![0, 19072] : Fin 2 → Nat) a + S128x64.size a ≤ S128x25600.size a
  inb_S128x25600_S128x64_0_25216 : ∀ a, (![0, 25216] : Fin 2 → Nat) a + S128x64.size a ≤ S128x25600.size a
  inb_S128x25600_S128x64_0_19136 : ∀ a, (![0, 19136] : Fin 2 → Nat) a + S128x64.size a ≤ S128x25600.size a
  inb_S128x12160_S128x128_0_11392 : ∀ a, (![0, 11392] : Fin 2 → Nat) a + S128x128.size a ≤ S128x12160.size a
  inb_S128x25600_S128x64_0_21440 : ∀ a, (![0, 21440] : Fin 2 → Nat) a + S128x64.size a ≤ S128x25600.size a
  inb_S128x25600_S128x64_0_20224 : ∀ a, (![0, 20224] : Fin 2 → Nat) a + S128x64.size a ≤ S128x25600.size a
  inb_S128x25600_S128x64_0_22720 : ∀ a, (![0, 22720] : Fin 2 → Nat) a + S128x64.size a ≤ S128x25600.size a
  inb_S128x25600_S128x64_0_20288 : ∀ a, (![0, 20288] : Fin 2 → Nat) a + S128x64.size a ≤ S128x25600.size a
  inb_S128x12160_S128x128_0_11520 : ∀ a, (![0, 11520] : Fin 2 → Nat) a + S128x128.size a ≤ S128x12160.size a
  inb_S128x25600_S128x64_0_24000 : ∀ a, (![0, 24000] : Fin 2 → Nat) a + S128x64.size a ≤ S128x25600.size a
  inb_S128x25600_S128x64_0_20352 : ∀ a, (![0, 20352] : Fin 2 → Nat) a + S128x64.size a ≤ S128x25600.size a
  inb_S128x25600_S128x64_0_25280 : ∀ a, (![0, 25280] : Fin 2 → Nat) a + S128x64.size a ≤ S128x25600.size a
  inb_S128x25600_S128x64_0_20416 : ∀ a, (![0, 20416] : Fin 2 → Nat) a + S128x64.size a ≤ S128x25600.size a
  inb_S128x12160_S128x128_0_11648 : ∀ a, (![0, 11648] : Fin 2 → Nat) a + S128x128.size a ≤ S128x12160.size a
  inb_S128x25600_S128x64_0_22784 : ∀ a, (![0, 22784] : Fin 2 → Nat) a + S128x64.size a ≤ S128x25600.size a
  inb_S128x25600_S128x64_0_21568 : ∀ a, (![0, 21568] : Fin 2 → Nat) a + S128x64.size a ≤ S128x25600.size a
  inb_S128x25600_S128x64_0_24064 : ∀ a, (![0, 24064] : Fin 2 → Nat) a + S128x64.size a ≤ S128x25600.size a
  inb_S128x25600_S128x64_0_21632 : ∀ a, (![0, 21632] : Fin 2 → Nat) a + S128x64.size a ≤ S128x25600.size a
  inb_S128x12160_S128x128_0_11776 : ∀ a, (![0, 11776] : Fin 2 → Nat) a + S128x128.size a ≤ S128x12160.size a
  inb_S128x25600_S128x64_0_25344 : ∀ a, (![0, 25344] : Fin 2 → Nat) a + S128x64.size a ≤ S128x25600.size a
  inb_S128x25600_S128x64_0_21696 : ∀ a, (![0, 21696] : Fin 2 → Nat) a + S128x64.size a ≤ S128x25600.size a
  inb_S128x25600_S128x64_0_24128 : ∀ a, (![0, 24128] : Fin 2 → Nat) a + S128x64.size a ≤ S128x25600.size a
  inb_S128x25600_S128x64_0_22912 : ∀ a, (![0, 22912] : Fin 2 → Nat) a + S128x64.size a ≤ S128x25600.size a
  inb_S128x12160_S128x128_0_11904 : ∀ a, (![0, 11904] : Fin 2 → Nat) a + S128x128.size a ≤ S128x12160.size a
  inb_S128x25600_S128x64_0_25408 : ∀ a, (![0, 25408] : Fin 2 → Nat) a + S128x64.size a ≤ S128x25600.size a
  inb_S128x25600_S128x64_0_22976 : ∀ a, (![0, 22976] : Fin 2 → Nat) a + S128x64.size a ≤ S128x25600.size a
  inb_S128x25600_S128x64_0_25472 : ∀ a, (![0, 25472] : Fin 2 → Nat) a + S128x64.size a ≤ S128x25600.size a
  inb_S128x25600_S128x64_0_24256 : ∀ a, (![0, 24256] : Fin 2 → Nat) a + S128x64.size a ≤ S128x25600.size a
  inb_S128x12160_S128x128_0_12032 : ∀ a, (![0, 12032] : Fin 2 → Nat) a + S128x128.size a ≤ S128x12160.size a
  shapeCasts_S4096x12160_S4096x1x190x64 : S4096x12160.ShapeCasts S4096x1x190x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x25600.size a ≤ S4096x25600.size a
  hwx0_0 : ∀ i : grid0.Coords, EltTy.bits .f32 = 32 ∨ (Rect.block (s := S4096x25600) S128x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x12160.size a ≤ S4096x12160.size a
  hwx0_1 : ∀ i : grid0.Coords, EltTy.bits .f32 = 32 ∨ (Rect.block (s := S4096x12160) S128x12160.size (cc0_transform_1 i) (hinb0_1 i)).WholeWords (EltTy.packing .f32)

variable [Facts₀]

abbrev win0_0 : Pipeline.Window sig grid0 :=
  Pipeline.Window.ofSpec (Memref.whole main_v0) S128x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x12160.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x400x64 : Shape := ⟨3, ![4096, 400, 64]⟩
abbrev S190 : Shape := ⟨1, ![190]⟩
abbrev S4096x20x20x64 : Shape := ⟨4, ![4096, 20, 20, 64]⟩
abbrev S_ : Shape := ⟨0, ![]⟩
abbrev S190x1 : Shape := ⟨2, ![190, 1]⟩
abbrev S190x2 : Shape := ⟨2, ![190, 2]⟩
abbrev S4096x190x64 : Shape := ⟨3, ![4096, 190, 64]⟩
abbrev S4096x1x190x64 : Shape := ⟨4, ![4096, 1, 190, 64]⟩

abbrev nBuf : Space → Nat
  | .hbm => 42
  | .vmem => 0
  | .smem => 0
  | _ => 0

abbrev bufTy : (tb : Table) → Fin (tcTables nBuf tb) → BufTy
  | .hbm, ⟨0, _⟩ => ⟨S4096x400x64, .f32⟩
  | .hbm, ⟨1, _⟩ => ⟨S190, .i32⟩
  | .hbm, ⟨2, _⟩ => ⟨S190, .i32⟩
  | .hbm, ⟨3, _⟩ => ⟨S4096x20x20x64, .f32⟩
  | .hbm, ⟨4, _⟩ => ⟨S_, .i32⟩
  | .hbm, ⟨5, _⟩ => ⟨S190, .i32⟩
  | .hbm, ⟨6, _⟩ => ⟨S190, .i1⟩
  | .hbm, ⟨7, _⟩ => ⟨S_, .i32⟩
  | .hbm, ⟨8, _⟩ => ⟨S190, .i32⟩
  | .hbm, ⟨9, _⟩ => ⟨S190, .i32⟩
  | .hbm, ⟨10, _⟩ => ⟨S190, .i32⟩
  | .hbm, ⟨11, _⟩ => ⟨S_, .i32⟩
  | .hbm, ⟨12, _⟩ => ⟨S190, .i32⟩
  | .hbm, ⟨13, _⟩ => ⟨S190, .i1⟩
  | .hbm, ⟨14, _⟩ => ⟨S_, .i32⟩
  | .hbm, ⟨15, _⟩ => ⟨S190, .i32⟩
  | .hbm, ⟨16, _⟩ => ⟨S190, .i32⟩
  | .hbm, ⟨17, _⟩ => ⟨S190, .i32⟩
  | .hbm, ⟨18, _⟩ => ⟨S190x1, .i32⟩
  | .hbm, ⟨19, _⟩ => ⟨S190x1, .i32⟩
  | .hbm, ⟨20, _⟩ => ⟨S190x2, .i32⟩
  | .hbm, ⟨21, _⟩ => ⟨S4096x190x64, .f32⟩
  | .hbm, ⟨22, _⟩ => ⟨S_, .i32⟩
  | .hbm, ⟨23, _⟩ => ⟨S190, .i32⟩
  | .hbm, ⟨24, _⟩ => ⟨S190, .i1⟩
  | .hbm, ⟨25, _⟩ => ⟨S_, .i32⟩
  | .hbm, ⟨26, _⟩ => ⟨S190, .i32⟩
  | .hbm, ⟨27, _⟩ => ⟨S190, .i32⟩
  | .hbm, ⟨28, _⟩ => ⟨S190, .i32⟩
  | .hbm, ⟨29, _⟩ => ⟨S_, .i32⟩
  | .hbm, ⟨30, _⟩ => ⟨S190, .i32⟩
  | .hbm, ⟨31, _⟩ => ⟨S190, .i1⟩
  | .hbm, ⟨32, _⟩ => ⟨S_, .i32⟩
  | .hbm, ⟨33, _⟩ => ⟨S190, .i32⟩
  | .hbm, ⟨34, _⟩ => ⟨S190, .i32⟩
  | .hbm, ⟨35, _⟩ => ⟨S190, .i32⟩
  | .hbm, ⟨36, _⟩ => ⟨S190x1, .i32⟩
  | .hbm, ⟨37, _⟩ => ⟨S190x1, .i32⟩
  | .hbm, ⟨38, _⟩ => ⟨S190x2, .i32⟩
  | .hbm, ⟨39, _⟩ => ⟨S4096x190x64, .f32⟩
  | .hbm, ⟨40, _⟩ => ⟨S4096x190x64, .f32⟩
  | .hbm, ⟨41, _⟩ => ⟨S4096x1x190x64, .f32⟩
  | _, _ => ⟨S4096x400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_5 : Ref sig .tc := ⟨.hbm, 22, rfl⟩
abbrev main_v15 : Ref sig .tc := ⟨.hbm, 23, rfl⟩
abbrev main_v16 : Ref sig .tc := ⟨.hbm, 24, rfl⟩
abbrev main_c_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_7 : Ref sig .tc := ⟨.hbm, 29, rfl⟩
abbrev main_v20 : Ref sig .tc := ⟨.hbm, 30, rfl⟩
abbrev main_v21 : Ref sig .tc := ⟨.hbm, 31, rfl⟩
abbrev main_c_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S4096x400x64_S4096x20x20x64 : S4096x400x64.ShapeCasts S4096x20x20x64
  bcast_S_S190 : S_.BroadcastsInDim S190 (![] : Fin 0 → Fin S190.rank)
  bcast_S190_S190x1_0 : S190.BroadcastsInDim S190x1 (![0] : Fin 1 → Fin S190x1.rank)
  concatenates_S190x1_S190x1_S190x2_d1 : Shape.Concatenates [S190x1, S190x1] S190x2 1
  bcast_S4096x190x64_S4096x1x190x64_0_2_3 : S4096x190x64.BroadcastsInDim S4096x1x190x64 (![0, 2, 3] : Fin 3 → Fin S4096x1x190x64.rank)
  gather_S4096x20x20x64_S190x2_S4096x190x64_02_12_n_n_12_1_40961164_wf : GatherDims.WF S4096x20x20x64 S190x2 S4096x190x64 [0, 2] [1, 2] [] [1, 2] [] 1 ![4096, 1, 1, 64]

variable [Facts₀]

def gather_S4096x20x20x64_S190x2_S4096x190x64_02_12_n_n_12_1_40961164 : GatherDims S4096x20x20x64 S190x2 S4096x190x64 where
  offsetDims := [0, 2]
  collapsedSliceDims := [1, 2]
  operandBatchingDims := []
  startIndicesBatchingDims := []
  startIndexMap := [1, 2]
  indexVectorDim := 1
  sliceSizes := ![4096, 1, 1, 64]
  wf := gather_S4096x20x20x64_S190x2_S4096x190x64_02_12_n_n_12_1_40961164_wf

class Facts : Prop extends Facts₀ where

variable [Facts]
-- ==== Proof.Spec.lean ====
/-
  What both programs compute. The input is [4096, 400, 64]: per batch row, a 20 × 20 grid of fields
  (slot (a, b) is row a·20 + b of the 400) of 64-vectors. The 190 pairs i < j of fields are listed in
  row-major order, (0,1), (0,2), …, (18,19); entry (b, 0, p, e) of the result is

      x[b, j·20 + i, e] · x[b, i·20 + j, e]      where (i, j) is the p-th pair:

  the product of the two slots that mirror each other across the diagonal. The same product, in the same
  order of its two factors, on both sides: no law of the extended reals is needed beyond equality, and the
  finiteness of the inputs is never used.

  The tables of the pairs are the two literal tables the reference prints (`lit0` lists j, `lit1` lists i).
  `G` is the result over the three-axis input; `Gflat` and `Gblk` are the same function on the arrays with
  the last two axes merged (400·64 = 25600 columns in, 190·64 = 12160 columns out), for the whole array of
  4096 rows and for one block of 128 rows: column p·64 + e of the output reads columns (j·20 + i)·64 + e
  and (i·20 + j)·64 + e of the input.
-/
import proofs.«429559_j25872882991599_3_alg».proof.ReferenceIdeal
import Idealize.ShloMosaic.PureOps.Ideal
import Idealize.ShloMosaic.Lib.ValueIdx

noncomputable section

namespace Cert.PairProduct

open Idealize.ShloMosaic Idealize.ShloMosaic.ValueIdx

/-- The larger field `j` of the `p`-th pair. -/
def hi (p : Fin 190) : ℕ := (Cert.ReferenceIdeal.lit0 p).toNat
/-- The smaller field `i` of the `p`-th pair. -/
def lo (p : Fin 190) : ℕ := (Cert.ReferenceIdeal.lit1 p).toNat

/-- Both are fields: below 20. -/
theorem hi_lt : ∀ p : Fin 190, hi p < 20 := by decide
theorem lo_lt : ∀ p : Fin 190, lo p < 20 := by decide

/-- Slot (a, b) of the 20 × 20 grid, as a row of the 400. -/
def slot (a b : ℕ) (ha : a < 20) (hb : b < 20) : Fin 400 := ⟨a * 20 + b, by omega⟩

/-- The slot below the diagonal of pair `p`: (j, i). -/
def slotA (p : Fin 190) : Fin 400 := slot (hi p) (lo p) (hi_lt p) (lo_lt p)
/-- The slot above the diagonal of pair `p`: (i, j). -/
def slotB (p : Fin 190) : Fin 400 := slot (lo p) (hi p) (lo_lt p) (hi_lt p)

/-- THE RESULT: entry (b, 0, p, e) is the product of the two mirrored slots of pair `p` at (b, ·, e). -/
def G (x : FVec Ideal ⟨3, ![4096, 400, 64]⟩ .f32) : FVec Ideal ⟨4, ![4096, 1, 190, 64]⟩ .f32 := fun i =>
  x (ix3 (n0 := 4096) (n1 := 400) (n2 := 64) ⟨(i 0).val, (i 0).isLt⟩ (slotA ⟨(i 2).val, (i 2).isLt⟩) ⟨(i 3).val, (i 3).isLt⟩)
    * x (ix3 (n0 := 4096) (n1 := 400) (n2 := 64) ⟨(i 0).val, (i 0).isLt⟩ (slotB ⟨(i 2).val, (i 2).isLt⟩) ⟨(i 3).val, (i 3).isLt⟩)

/-! ## The same with the last two axes merged -/

/-- The pair an output column belongs to: column q = p·64 + e. -/
def pairOf (q : Fin 12160) : Fin 190 := ⟨q.val / 64, by have := q.isLt; omega⟩

/-- The input column the first factor of output column `q` is read from. -/
def colA (q : Fin 12160) : Fin 25600 :=
  ⟨(slotA (pairOf q)).val * 64 + q.val % 64, by have := (slotA (pairOf q)).isLt; omega⟩
/-- The input column of the second factor. -/
def colB (q : Fin 12160) : Fin 25600 :=
  ⟨(slotB (pairOf q)).val * 64 + q.val % 64, by have := (slotB (pairOf q)).isLt; omega⟩

/-- One block of 128 rows. -/
def Gblk (x : FVec Ideal ⟨2, ![128, 25600]⟩ .f32) : FVec Ideal ⟨2, ![128, 12160]⟩ .f32 := fun i =>
  x (ix2 (n0 := 128) (n1 := 25600) ⟨(i 0).val, (i 0).isLt⟩ (colA ⟨(i 1).val, (i 1).isLt⟩))
    * x (ix2 (n0 := 128) (n1 := 25600) ⟨(i 0).val, (i 0).isLt⟩ (colB ⟨(i 1).val, (i 1).isLt⟩))

/-- The whole array of 4096 rows. -/
def Gflat (x : FVec Ideal ⟨2, ![4096, 25600]⟩ .f32) : FVec Ideal ⟨2, ![4096, 12160]⟩ .f32 := fun i =>
  x (ix2 (n0 := 4096) (n1 := 25600) ⟨(i 0).val, (i 0).isLt⟩ (colA ⟨(i 1).val, (i 1).isLt⟩))
    * x (ix2 (n0 := 4096) (n1 := 25600) ⟨(i 0).val, (i 0).isLt⟩ (colB ⟨(i 1).val, (i 1).isLt⟩))

end Cert.PairProduct

end
-- ==== Proof.KernelBlock.lean ====
/-
  One grid point of the kernel: the output block [128, 12160] is written by 95 stores of [128, 128], each the
  two products of a pair of neighbouring pairs side by side, every factor a 64-column slice of the input
  block [128, 25600]. Read at an index, the block is the function `Gblk` of the input block.

  Store g (g = 0 … 94) covers columns 128·g … 128·g + 127: its left half is pair 2g, its right half pair 2g + 1.
  At column 128·g + q the left half (q < 64) reads the two slices at column q, the right half (64 ≤ q) at
  column q − 64; the slices of pair p start at columns (j·20 + i)·64 and (i·20 + j)·64, which is what `colA`
  and `colB` name for output column p·64 + e. One statement over a store's five starting columns carries
  every store; the table of pairs enters only as the four equations between a store's starting columns and
  the slots of its two pairs.
-/
import proofs.«429559_j25872882991599_3_alg».proof.Proof.Gen.KernelIdeal.Frame
import proofs.«429559_j25872882991599_3_alg».proof.Proof.Spec
import Idealize.ShloMosaic.Lib.Pipeline.Value

noncomputable section

namespace Cert.PairProduct

open Idealize.ShloMosaic Idealize.ShloMosaic.ValueIdx
open Cert.KernelIdeal

/-- The block function at an index given by its two coordinates. -/
theorem Gblk_ix2 (x0 : FVec Ideal ⟨2, ![128, 25600]⟩ .f32) (r : Fin 128) (q : Fin 12160) :
    Gblk x0 (ix2 r q) = x0 (ix2 r (colA q)) * x0 (ix2 r (colB q)) := rfl

/-- Output column q = p·64 + e reads its first factor at column (slot below the diagonal of p)·64 + e. -/
theorem colA_val (q : Fin 12160) (p : Fin 190) (e : ℕ) (hp : q.val / 64 = p.val) (he : q.val % 64 = e) :
    (colA q).val = (slotA p).val * 64 + e := by
  have : pairOf q = p := Fin.ext hp
  subst he
  show (slotA (pairOf q)).val * 64 + q.val % 64 = _
  rw [this]

/-- And its second factor at column (slot above the diagonal of p)·64 + e. -/
theorem colB_val (q : Fin 12160) (p : Fin 190) (e : ℕ) (hp : q.val / 64 = p.val) (he : q.val % 64 = e) :
    (colB q).val = (slotB p).val * 64 + e := by
  have : pairOf q = p := Fin.ext hp
  subst he
  show (slotB (pairOf q)).val * 64 + q.val % 64 = _
  rw [this]

/-- A 64-column slice of the input block starting at column `o`, read at (r, q), is the block at (r, o + q). -/
theorem ld_ix2 (x0 : Vec Ideal S128x25600 .f32) (o : ℕ)
    (ho : ∀ a, (![0, o] : Fin 2 → Nat) a + S128x64.size a ≤ S128x25600.size a)
    (r : Fin 128) (q : Fin 64) (c : Fin 25600) (hc : c.val = o + q.val) :
    View.ld x0 (Rect.unit (s := S128x25600) ![0, o] S128x64.size ho) (ix2 r q) = x0 (ix2 r c) := by
  show x0 _ = x0 _
  refine congrArg x0 (Shape.idx_ext₂ ?_ ?_)
  · simp only [LoadRect.idx_apply, Rect.off_unit, Rect.stride_unit]; simp
  · simp only [LoadRect.idx_apply, Rect.off_unit, Rect.stride_unit]; simp [hc]

/-- A 64-column slice starting at column `o` lies inside the input block when `o + 64 ≤ 25600`. -/
theorem inb64 {o : ℕ} (h : o + 64 ≤ 25600) :
    ∀ a, (![0, o] : Fin 2 → Nat) a + S128x64.size a ≤ S128x25600.size a :=
  Rect.inb₂ (by simp) (by simpa using h)

/-- A 128-column store starting at column `o` lies inside the output block when `o + 128 ≤ 12160`. -/
theorem inb128 {o : ℕ} (h : o + 128 ≤ 12160) :
    ∀ a, (![0, o] : Fin 2 → Nat) a + S128x128.size a ≤ S128x12160.size a :=
  Rect.inb₂ (by simp) (by simpa using h)

/-- ONE STORE, over its five starting columns: the store at output column `og` (a multiple of 64, so that
    `og / 64` and `og / 64 + 1` are its two pairs) whose four slices start at the columns the two pairs'
    mirrored slots name (`e1` … `e4`) holds, at each of its indices, the block function at the index's place
    in the output block. Left of the middle the column og + q has pair og / 64 and offset q; from the middle
    on, pair og / 64 + 1 and offset q − 64; in both halves the two factors are the input block at the row and
    the columns `colA`, `colB` of og + q, in the same order. -/
theorem piece_eq (x0 : Vec Ideal S128x25600 .f32) (oa0 ob0 oa1 ob1 og : ℕ)
    (ka0 : oa0 + 64 ≤ 25600) (kb0 : ob0 + 64 ≤ 25600) (ka1 : oa1 + 64 ≤ 25600) (kb1 : ob1 + 64 ≤ 25600)
    (hsum : og + 128 ≤ 12160)
    (hp0 : og / 64 < 190) (hp1 : og / 64 + 1 < 190) (hog : og % 64 = 0)
    (e1 : (slotA ⟨og / 64, hp0⟩).val * 64 = oa0) (e2 : (slotB ⟨og / 64, hp0⟩).val * 64 = ob0)
    (e3 : (slotA ⟨og / 64 + 1, hp1⟩).val * 64 = oa1) (e4 : (slotB ⟨og / 64 + 1, hp1⟩).val * 64 = ob1) :
    ∀ x : (Rect.unit (s := S128x12160) ![0, og] S128x128.size (inb128 hsum)).shape.Idx,
      concatenate S128x128 1
        [⟨S128x64, mulf
            (shapeCast S128x64 (View.ld x0 (Rect.unit (s := S128x25600) ![0, oa0] S128x64.size (inb64 ka0)))
              Gen.shapeCasts_S128x64_S128x64)
            (shapeCast S128x64 (View.ld x0 (Rect.unit (s := S128x25600) ![0, ob0] S128x64.size (inb64 kb0)))
              Gen.shapeCasts_S128x64_S128x64)⟩,
         ⟨S128x64, mulf
            (shapeCast S128x64 (View.ld x0 (Rect.unit (s := S128x25600) ![0, oa1] S128x64.size (inb64 ka1)))
              Gen.shapeCasts_S128x64_S128x64)
            (shapeCast S128x64 (View.ld x0 (Rect.unit (s := S128x25600) ![0, ob1] S128x64.size (inb64 kb1)))
              Gen.shapeCasts_S128x64_S128x64)⟩]
        Gen.concatenates_S128x64_S128x64_S128x128_d1 x
        = Gblk x0 ((Rect.unit (s := S128x12160) ![0, og] S128x128.size (inb128 hsum)).emb x) := by
  intro (x : S128x128.Idx)
  have hx0 : (x 0).val < 128 := (x 0).isLt
  have hx1 : (x 1).val < 128 := (x 1).isLt
  -- the index's place in the output block: same row, column og + q
  have hemb : (Rect.unit (s := S128x12160) ![0, og] S128x128.size (inb128 hsum)).emb x
      = ix2 (n0 := 128) (n1 := 12160) ⟨(x 0).val, hx0⟩ ⟨og + (x 1).val, by omega⟩ := by
    refine Shape.idx_ext₂ ?_ ?_
    · simp only [Rect.emb_apply, Rect.off_unit, Rect.stride_unit]; simp
    · simp only [Rect.emb_apply, Rect.off_unit, Rect.stride_unit]; simp
  rw [hemb, Gblk_ix2]
  by_cases hq : (x 1).val < 64
  · -- the left half: the first pair of the store, column og + q with q < 64
    rw [concatenate_pair_apply_left (t := S128x128) (s₁ := S128x64) (s₂ := S128x64) (1 : Fin 2) _ _
      Gen.concatenates_S128x64_S128x64_S128x128_d1 x rfl
      (ix2 (n0 := 128) (n1 := 64) ⟨(x 0).val, hx0⟩ ⟨(x 1).val, hq⟩)
      (by intro b; match b with | ⟨0, _⟩ => rfl | ⟨1, _⟩ => rfl)]
    rw [mulf_apply, shapeCast_self, shapeCast_self]
    rw [ld_ix2 x0 oa0 (inb64 ka0) _ _ (colA ⟨og + (x 1).val, by omega⟩)
          (by rw [colA_val _ ⟨og / 64, hp0⟩ (x 1).val (by show (og + (x 1).val) / 64 = og / 64; omega)
                (by show (og + (x 1).val) % 64 = (x 1).val; omega), e1]),
        ld_ix2 x0 ob0 (inb64 kb0) _ _ (colB ⟨og + (x 1).val, by omega⟩)
          (by rw [colB_val _ ⟨og / 64, hp0⟩ (x 1).val (by show (og + (x 1).val) / 64 = og / 64; omega)
                (by show (og + (x 1).val) % 64 = (x 1).val; omega), e2])]
  · -- the right half: the second pair, column og + q with 64 ≤ q
    rw [concatenate_pair_apply_right (t := S128x128) (s₁ := S128x64) (s₂ := S128x64) (1 : Fin 2) _ _
      Gen.concatenates_S128x64_S128x64_S128x128_d1 x rfl rfl
      (ix2 (n0 := 128) (n1 := 64) ⟨(x 0).val, hx0⟩ ⟨(x 1).val - 64, by omega⟩)
      (by intro b hb; match b, hb with | ⟨0, _⟩, _ => rfl | ⟨1, _⟩, hb => exact absurd rfl hb)
      (by show (x 1).val - 64 + 64 = (x 1).val; omega)]
    rw [mulf_apply, shapeCast_self, shapeCast_self]
    rw [ld_ix2 x0 oa1 (inb64 ka1) _ _ (colA ⟨og + (x 1).val, by omega⟩)
          (by rw [colA_val _ ⟨og / 64 + 1, hp1⟩ ((x 1).val - 64)
                (by show (og + (x 1).val) / 64 = og / 64 + 1; omega)
                (by show (og + (x 1).val) % 64 = (x 1).val - 64; omega), e3]),
        ld_ix2 x0 ob1 (inb64 kb1) _ _ (colB ⟨og + (x 1).val, by omega⟩)
          (by rw [colB_val _ ⟨og / 64 + 1, hp1⟩ ((x 1).val - 64)
                (by show (og + (x 1).val) / 64 = og / 64 + 1; omega)
                (by show (og + (x 1).val) % 64 = (x 1).val - 64; omega), e4])]

-- 95 stores, each settled by the one statement above and twelve evaluations of literals
set_option maxHeartbeats 2000000 in
/-- What the body leaves in the output block, as one function of the input block. -/
theorem out_block (x0 : Vec Ideal Cert.KernelIdeal.S128x25600 .f32) :
    Cert.KernelIdeal.Gen.out0_1 (F := Ideal) x0 = Gblk x0 := by
  funext y
  unfold Cert.KernelIdeal.Gen.out0_1
  -- the stores cover the block, so it is enough that every store holds the block function on its rectangle
  refine View.canon_apply_of_pieces (Val := Elt Ideal) (S := S128x12160) (e := .f32) (Gblk x0) _ ?_ y
    (Cert.KernelIdeal.Gen.cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  -- one goal per store
  repeat' (first | exact List.forall_mem_nil _ | refine List.forall_mem_cons.2 ⟨?_, ?_⟩)
  -- each store's payload is two products of slices side by side; its five starting columns are read off its
  -- rectangles, the slices and the store lie inside their blocks, and the starting columns are those of the
  -- two pairs' mirrored slots in the table
  all_goals exact piece_eq x0 _ _ _ _ _ (by decide) (by decide) (by decide) (by decide) (by decide) (by decide) (by decide) (by decide) (by decide) (by decide) (by decide) (by decide)

end Cert.PairProduct

end
-- ==== Proof.Merge.lean ====
/-
  Merging and splitting axes. The kernel's program reshapes the input [4096, 400, 64] to [4096, 25600] before
  its grid and the grid's output [4096, 12160] to [4096, 1, 190, 64] after it. Both reshapes keep row-major
  order, so entry (b, s·64 + e) of the merged input is entry (b, s, e) of the input, and entry (b, 0, p, e) of
  the result is entry (b, p·64 + e) of the merged output. Column p·64 + e belongs to pair p and reads the
  columns slot·64 + e of the two mirrored slots: the flat function `Gflat` between the two reshapes is `G`.
-/
import proofs.«429559_j25872882991599_3_alg».proof.Proof.Spec
import Idealize.ShloMosaic.Lib.Pipeline.Value

noncomputable section

namespace Cert.PairProduct

open Idealize.ShloMosaic Idealize.ShloMosaic.ValueIdx

/-- The merged input at (b, s·64 + e) is the input at (b, s, e). -/
theorem merged_apply (x : FVec Ideal ⟨3, ![4096, 400, 64]⟩ .f32)
    (h : (⟨3, ![4096, 400, 64]⟩ : Shape).ShapeCasts ⟨2, ![4096, 25600]⟩)
    (b : Fin 4096) (s : Fin 400) (e : Fin 64) (q : Fin 25600) (hq : q.val = s.val * 64 + e.val) :
    shapeCast ⟨2, ![4096, 25600]⟩ x h (ix2 b q) = x (ix3 b s e) :=
  shapeCast_apply x h _ _ (by
    rw [Shape.rowMajor_val_three, Shape.rowMajor_val_two]
    show (b.val * 400 + s.val) * 64 + e.val = b.val * 25600 + q.val
    omega)

/-- Column p·64 + e of the output belongs to pair `p` … -/
theorem pairOf_col (p : Fin 190) (e : Fin 64) (q : Fin 12160) (hq : q.val = p.val * 64 + e.val) : pairOf q = p :=
  Fin.ext (by show q.val / 64 = p.val; omega)

/-- … and reads the two mirrored slots' columns at the same offset `e`. -/
theorem colA_col (p : Fin 190) (e : Fin 64) (q : Fin 12160) (hq : q.val = p.val * 64 + e.val) :
    (colA q).val = (slotA p).val * 64 + e.val := by
  show (slotA (pairOf q)).val * 64 + q.val % 64 = _
  rw [pairOf_col p e q hq]; omega
theorem colB_col (p : Fin 190) (e : Fin 64) (q : Fin 12160) (hq : q.val = p.val * 64 + e.val) :
    (colB q).val = (slotB p).val * 64 + e.val := by
  show (slotB (pairOf q)).val * 64 + q.val % 64 = _
  rw [pairOf_col p e q hq]; omega

/-- Between the two reshapes the flat function is the result `G`. -/
theorem split_Gflat_merged (x : FVec Ideal ⟨3, ![4096, 400, 64]⟩ .f32)
    (h0 : (⟨3, ![4096, 400, 64]⟩ : Shape).ShapeCasts ⟨2, ![4096, 25600]⟩)
    (h1 : (⟨2, ![4096, 12160]⟩ : Shape).ShapeCasts ⟨4, ![4096, 1, 190, 64]⟩) :
    shapeCast ⟨4, ![4096, 1, 190, 64]⟩ (Gflat (shapeCast ⟨2, ![4096, 25600]⟩ x h0)) h1 = G x := by
  funext i
  obtain ⟨b, z, p, e, rfl⟩ : ∃ (b : Fin 4096) (z : Fin 1) (p : Fin 190) (e : Fin 64), i = ix4 b z p e :=
    ⟨i 0, i 1, i 2, i 3, eq_ix4 i⟩
  have hz : z.val = 0 := by omega
  have hqlt : p.val * 64 + e.val < 12160 := by omega
  -- the entry of the merged output that (b, 0, p, e) reads
  refine (shapeCast_apply (Gflat (shapeCast ⟨2, ![4096, 25600]⟩ x h0)) h1 (ix4 b z p e)
    (ix2 b ⟨p.val * 64 + e.val, hqlt⟩) (by
      rw [Shape.rowMajor_val_four, Shape.rowMajor_val_two]
      show b.val * 12160 + (p.val * 64 + e.val) = ((b.val * 1 + z.val) * 190 + p.val) * 64 + e.val
      omega)).trans ?_
  -- its two factors, each an entry of the merged input
  show shapeCast ⟨2, ![4096, 25600]⟩ x h0 (ix2 b (colA ⟨p.val * 64 + e.val, hqlt⟩))
      * shapeCast ⟨2, ![4096, 25600]⟩ x h0 (ix2 b (colB ⟨p.val * 64 + e.val, hqlt⟩))
    = x (ix3 b (slotA p) e) * x (ix3 b (slotB p) e)
  rw [merged_apply x h0 b (slotA p) e _ (colA_col p e ⟨p.val * 64 + e.val, hqlt⟩ rfl),
    merged_apply x h0 b (slotB p) e _ (colB_col p e ⟨p.val * 64 + e.val, hqlt⟩ rfl)]

end Cert.PairProduct

end
-- ==== Proof.KernelArray.lean ====
/-
  From one block to the whole result. The grid has 32 points; point t reads rows 128·t … 128·t + 127 of the
  merged input [4096, 25600] and writes the same rows of the merged output [4096, 12160], every column of it.
  Each block is `Gblk` of its input block, and `Gblk` and `Gflat` read a row only at that same row, so what
  point t writes is block t of `Gflat` of the merged input; the 32 blocks cover the output. Around the grid
  the program merges the input's last two axes and splits the output's columns back into (1, 190, 64):
  between those two reshapes `Gflat` is `G`.
-/
import proofs.«429559_j25872882991599_3_alg».proof.Proof.Gen.KernelIdeal.Frame
import proofs.«429559_j25872882991599_3_alg».proof.Proof.KernelBlock
import proofs.«429559_j25872882991599_3_alg».proof.Proof.Merge
import Idealize.ShloMosaic.Lib.Pipeline.Value
import Idealize.ShloMosaic.Lib.StableHlo.Run

set_option maxRecDepth 16384

noncomputable section

namespace Cert.PairProduct

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Both windows move down the rows with the point and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ t.val < 32 :=
  (by decide +kernel : ∀ t : Fin grid0.N, _)

/-- `Gblk` of a block of rows of an array is that block of rows of `Gflat` of the array: both read row r only
    at row r. -/
theorem Gblk_rows (X : FVec Ideal ⟨2, ![4096, 25600]⟩ .f32) (T : ℕ) (hT : T < 32)
    (x0 : FVec Ideal ⟨2, ![128, 25600]⟩ .f32)
    (hx : ∀ (r : Fin 128) (q : Fin 25600), x0 (ix2 r q) = X (ix2 ⟨T * 128 + r.val, by omega⟩ q))
    (r : Fin 128) (q : Fin 12160) :
    Gblk x0 (ix2 r q) = Gflat X (ix2 ⟨T * 128 + r.val, by omega⟩ q) := by
  show x0 (ix2 ⟨r.val, _⟩ (colA ⟨q.val, _⟩)) * x0 (ix2 ⟨r.val, _⟩ (colB ⟨q.val, _⟩))
    = X (ix2 ⟨T * 128 + r.val, _⟩ (colA ⟨q.val, _⟩)) * X (ix2 ⟨T * 128 + r.val, _⟩ (colB ⟨q.val, _⟩))
  rw [hx, hx]

/-- The input block at point `t`, entry (r, q): the merged input at row 128·t + r. -/
theorem iblk_apply (c : Dev nD) (t : Fin cfg0.N) (r : Fin 128) (q : Fin 25600) :
    iblk m c 0 t (ix2 r q) = V m c main_v0 (ix2 (n0 := 4096) (n1 := 25600) ⟨t.val * 128 + r.val, by have := (idx_facts t).2.2.2.2; omega⟩ q) := by
  obtain ⟨e0, e1, e2, e3, e4⟩ := idx_facts t
  show V m c main_v0 (((cfg0.win 0).blk t).view.emb (ix2 r q)) = V m c main_v0 _
  refine congrArg (V m c main_v0) (funext fun a => Fin.ext ?_)
  match a with
  | ⟨0, _⟩ => show win0_0.index t (0 : Fin 2) * 128 + 1 * r.val = t.val * 128 + r.val; omega
  | ⟨1, _⟩ => show win0_0.index t (1 : Fin 2) * 25600 + 1 * q.val = q.val; omega

/-- WHAT POINT `t` WRITES BACK is block `t` of `Gflat` of the merged input. -/
theorem flushed_eq (c : Dev nD) (t : Fin cfg0.N) :
    (dats m 0 c).flushed 1 t = ((cfg0.win 1).blk t).view.read (Elt Ideal) (Gflat (V m c main_v0)) := by
  obtain ⟨e0, e1, e2, e3, e4⟩ := idx_facts t
  show (cfg0.win 1).cut (grid0.coords t) ((dats m 0 c).after 1 t) = _
  rw [after0_1, out_block]
  funext j
  obtain ⟨r, q, rfl⟩ : ∃ (r : Fin 128) (q : Fin 12160), j = ix2 r q := ⟨j 0, j 1, eq_ix2 j⟩
  show Gblk (iblk m c 0 t) (ix2 r q) = Gflat (V m c main_v0) (((cfg0.win 1).blk t).view.emb (ix2 r q))
  rw [Gblk_rows (V m c main_v0) t.val e4 (iblk m c 0 t) (fun r q => iblk_apply m c t r q) r q]
  refine congrArg (Gflat (V m c main_v0)) (funext fun a => Fin.ext ?_)
  match a with
  | ⟨0, _⟩ => show t.val * 128 + r.val = win0_1.index t (0 : Fin 2) * 128 + 1 * r.val; omega
  | ⟨1, _⟩ => show q.val = win0_1.index t (1 : Fin 2) * 12160 + 1 * q.val; omega

/-- An index of the merged output is in point `t`'s block iff each coordinate is in the block's range. -/
theorem mem_blk (t : Fin cfg0.N) (i : S4096x12160.Idx) :
    i ∈ ((cfg0.win 1).blk t).view.set ↔ ∀ a : Fin 2, win0_1.index t a * S128x12160.size a ≤ (i a).val
      ∧ (i a).val < win0_1.index t a * S128x12160.size a + S128x12160.size a := by
  show i ∈ ((View.whole main_v1).slice (win0_1.rect t)).set ↔ _
  rw [View.set_slice_whole, Rect.mem_set_unit]
  exact Iff.rfl

/-- Row b of the merged output is in the block of point b / 128. -/
theorem covered (i : S4096x12160.Idx) :
    ∃ t : Fin cfg0.N, (cfg0.win 1).flush t = true ∧ i ∈ ((cfg0.win 1).blk t).view.set := by
  have hi0 : (i 0).val < 4096 := (i 0).isLt
  have hi1 : (i 1).val < 12160 := (i 1).isLt
  have hN : (i 0).val / 128 < cfg0.N := by rw [show cfg0.N = 32 from N_0]; omega
  refine ⟨⟨(i 0).val / 128, hN⟩, flush0_1 _, ?_⟩
  obtain ⟨e0, e1, e2, e3, e4⟩ := idx_facts ⟨(i 0).val / 128, hN⟩
  rw [mem_blk]
  intro a
  match a with
  | ⟨0, _⟩ =>
    show win0_1.index ⟨(i 0).val / 128, hN⟩ (0 : Fin 2) * 128 ≤ (i 0).val
      ∧ (i 0).val < win0_1.index ⟨(i 0).val / 128, hN⟩ (0 : Fin 2) * 128 + 128
    rw [e2]; show (i 0).val / 128 * 128 ≤ (i 0).val ∧ (i 0).val < (i 0).val / 128 * 128 + 128; omega
  | ⟨1, _⟩ =>
    show win0_1.index ⟨(i 0).val / 128, hN⟩ (1 : Fin 2) * 12160 ≤ (i 1).val
      ∧ (i 1).val < win0_1.index ⟨(i 0).val / 128, hN⟩ (1 : Fin 2) * 12160 + 12160
    rw [e3]; omega

/-- THE MERGED OUTPUT after the grid: `Gflat` of the merged input. -/
theorem final (c : Dev nD) : (dats m 0 c).arrAt 1 cfg0.N = Gflat (V m c main_v0) :=
  (dats m 0 c).arrAt_eq_of_cover 1 (Gflat (V m c main_v0)) (fun t _ => flushed_eq m c t) covered

/-- The merged input is the reshape of the argument. -/
theorem V_merged (c : Dev nD) :
    (V m c main_v0 : S4096x25600.Idx → EReal)
      = shapeCast S4096x25600 (m ((c : Thread nD τ).loc main_arg0)) shapeCasts_S4096x400x64_S4096x25600 := by
  show StableHlo.after hostOps0 (fun b => m (c, b)) (Proc.devRef .tc main_v0) = _
  after_results
  rfl

/-- The result buffer after the reshape that follows the grid. -/
theorem tail_eq (c : Dev nD) :
    Pipeline.afterTail₀ cfgs (dats m) 0 (V0 m) [hostOps1] c main_v2
      = G (m ((c : Thread nD τ).loc main_arg0)) := by
  unfold Pipeline.afterTail₀
  show StableHlo.after hostOps1 _ (Proc.devRef .tc main_v2) = _
  after_results
  rw [Pipeline.withArrays_arr spec0 launch0.win.arr_inj c _ _ 1, final, V_merged]
  exact split_Gflat_merged _ _ _

/-- THE KERNEL'S RUN: every weakly fair execution ends with the result at `G` of the argument, the argument
    unchanged. -/
theorem kernel_run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.PairProduct

end
-- ==== Proof.RefTerm.lean ====
/-
  The reference, as one term of its argument. It views the input as [4096, 20, 20, 64], gathers twice along
  the two field axes with start indices listed per pair — first (j, i), then (i, j), the tables being the
  printed literal tables of the larger and the smaller field of each pair, each passed through jnp's rule
  for a negative index (c < 0 ? c + 20 : c, which changes nothing here) —, multiplies the two gathered
  arrays entry by entry and inserts a unit axis.
-/
import proofs.«429559_j25872882991599_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The larger field of each pair, as the vector the program holds. -/
def tabHi : IVec S190 32 := fun i => lit0 (S190.rowMajor i)
/-- The smaller field of each pair. -/
def tabLo : IVec S190 32 := fun i => lit1 (S190.rowMajor i)

/-- jnp's rule for an index counted from the end: `c < 0 ? c + 20 : c`. -/
def wrap (c : IVec S190 32) : IVec S190 32 :=
  select (cmpi .slt c (broadcastInDim S190 ![] bcast_S_S190 (constantI S_ 32 0#32)))
    (addi c (broadcastInDim S190 ![] bcast_S_S190 (constantI S_ 32 20#32))) c

/-- The start indices [190, 2] of a gather: column 0 from `a`, column 1 from `b`, both wrapped. -/
def startIdx (a b : IVec S190 32) : IVec S190x2 32 :=
  concatenate S190x2 1 [⟨S190x1, broadcastInDim S190x1 ![0] bcast_S190_S190x1_0 (wrap a)⟩,
    ⟨S190x1, broadcastInDim S190x1 ![0] bcast_S190_S190x1_0 (wrap b)⟩] concatenates_S190x1_S190x1_S190x2_d1

/-- The input seen as [4096, 20, 20, 64]. -/
def grid (x : FVec F S4096x400x64 .f32) : FVec F S4096x20x20x64 .f32 :=
  shapeCast S4096x20x20x64 x shapeCasts_S4096x400x64_S4096x20x20x64

/-- The reference's result as a term of its argument. -/
def refTerm (x : FVec F S4096x400x64 .f32) : FVec F S4096x1x190x64 .f32 :=
  broadcastInDim S4096x1x190x64 ![0, 2, 3] bcast_S4096x190x64_S4096x1x190x64_0_2_3
    (mulf (Host.gather gather_S4096x20x20x64_S190x2_S4096x190x64_02_12_n_n_12_1_40961164 (grid x) (startIdx tabHi tabLo))
      (Host.gather gather_S4096x20x20x64_S190x2_S4096x190x64_02_12_n_n_12_1_40961164 (grid x) (startIdx tabLo tabHi)))

end Cert.ReferenceIdeal.RefValue

end
-- ==== Proof.RefRun.lean ====
/-
  The reference program runs: its @main is a straight line of 41 array operations, listed here in order, and
  every weakly fair execution ends with the result buffer holding the operations' composed term of the
  argument — the term `refTerm` — and the argument as it was.
-/
import proofs.«429559_j25872882991599_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 41 operations, in order. -/
abbrev ops : List (HloOp τ sig (Elt F)) :=
  [
    StableHlo.nullary main_c (fun i => lit0 (S190.rowMajor i)),
    StableHlo.nullary main_c_0 (fun i => lit1 (S190.rowMajor i)),
    StableHlo.reshape main_arg0 main_v0 rfl shapeCasts_S4096x400x64_S4096x20x20x64,
    StableHlo.nullary main_c_1 (constantI S_ 32 0#32),
    StableHlo.unary main_c_1 main_v1 (broadcastInDim S190 ![] bcast_S_S190 : (⟨S_, .i32⟩ : BufTy).Contents (Elt F) → (⟨S190, .i32⟩ : BufTy).Contents (Elt F)),
    StableHlo.binary main_c main_v1 main_v2 (cmpi .slt : (⟨S190, .i32⟩ : BufTy).Contents (Elt F) → (⟨S190, .i32⟩ : BufTy).Contents (Elt F) → (⟨S190, .i1⟩ : BufTy).Contents (Elt F)),
    StableHlo.nullary main_c_2 (constantI S_ 32 20#32),
    StableHlo.unary main_c_2 main_v3 (broadcastInDim S190 ![] bcast_S_S190 : (⟨S_, .i32⟩ : BufTy).Contents (Elt F) → (⟨S190, .i32⟩ : BufTy).Contents (Elt F)),
    StableHlo.binary main_c main_v3 main_v4 (addi : (⟨S190, .i32⟩ : BufTy).Contents (Elt F) → (⟨S190, .i32⟩ : BufTy).Contents (Elt F) → (⟨S190, .i32⟩ : BufTy).Contents (Elt F)),
    StableHlo.ternary main_v2 main_v4 main_c main_v5 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.nullary main_c_3 (constantI S_ 32 0#32),
    StableHlo.unary main_c_3 main_v6 (broadcastInDim S190 ![] bcast_S_S190 : (⟨S_, .i32⟩ : BufTy).Contents (Elt F) → (⟨S190, .i32⟩ : BufTy).Contents (Elt F)),
    StableHlo.binary main_c_0 main_v6 main_v7 (cmpi .slt : (⟨S190, .i32⟩ : BufTy).Contents (Elt F) → (⟨S190, .i32⟩ : BufTy).Contents (Elt F) → (⟨S190, .i1⟩ : BufTy).Contents (Elt F)),
    StableHlo.nullary main_c_4 (constantI S_ 32 20#32),
    StableHlo.unary main_c_4 main_v8 (broadcastInDim S190 ![] bcast_S_S190 : (⟨S_, .i32⟩ : BufTy).Contents (Elt F) → (⟨S190, .i32⟩ : BufTy).Contents (Elt F)),
    StableHlo.binary main_c_0 main_v8 main_v9 (addi : (⟨S190, .i32⟩ : BufTy).Contents (Elt F) → (⟨S190, .i32⟩ : BufTy).Contents (Elt F) → (⟨S190, .i32⟩ : BufTy).Contents (Elt F)),
    StableHlo.ternary main_v7 main_v9 main_c_0 main_v10 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v5 main_v11 (broadcastInDim S190x1 ![0] bcast_S190_S190x1_0 : (⟨S190, .i32⟩ : BufTy).Contents (Elt F) → (⟨S190x1, .i32⟩ : BufTy).Contents (Elt F)),
    StableHlo.unary main_v10 main_v12 (broadcastInDim S190x1 ![0] bcast_S190_S190x1_0 : (⟨S190, .i32⟩ : BufTy).Contents (Elt F) → (⟨S190x1, .i32⟩ : BufTy).Contents (Elt F)),
    StableHlo.binary main_v11 main_v12 main_v13 ((fun a b => concatenate S190x2 1 [⟨S190x1, a⟩, ⟨S190x1, b⟩] concatenates_S190x1_S190x1_S190x2_d1) : (⟨S190x1, .i32⟩ : BufTy).Contents (Elt F) → (⟨S190x1, .i32⟩ : BufTy).Contents (Elt F) → (⟨S190x2, .i32⟩ : BufTy).Contents (Elt F)),
    StableHlo.binary main_v0 main_v13 main_v14 ((fun x i => Host.gather gather_S4096x20x20x64_S190x2_S4096x190x64_02_12_n_n_12_1_40961164 x i) : (⟨S4096x20x20x64, .f32⟩ : BufTy).Contents (Elt F) → (⟨S190x2, .i32⟩ : BufTy).Contents (Elt F) → (⟨S4096x190x64, .f32⟩ : BufTy).Contents (Elt F)),
    StableHlo.nullary main_c_5 (constantI S_ 32 0#32),
    StableHlo.unary main_c_5 main_v15 (broadcastInDim S190 ![] bcast_S_S190 : (⟨S_, .i32⟩ : BufTy).Contents (Elt F) → (⟨S190, .i32⟩ : BufTy).Contents (Elt F)),
    StableHlo.binary main_c_0 main_v15 main_v16 (cmpi .slt : (⟨S190, .i32⟩ : BufTy).Contents (Elt F) → (⟨S190, .i32⟩ : BufTy).Contents (Elt F) → (⟨S190, .i1⟩ : BufTy).Contents (Elt F)),
    StableHlo.nullary main_c_6 (constantI S_ 32 20#32),
    StableHlo.unary main_c_6 main_v17 (broadcastInDim S190 ![] bcast_S_S190 : (⟨S_, .i32⟩ : BufTy).Contents (Elt F) → (⟨S190, .i32⟩ : BufTy).Contents (Elt F)),
    StableHlo.binary main_c_0 main_v17 main_v18 (addi : (⟨S190, .i32⟩ : BufTy).Contents (Elt F) → (⟨S190, .i32⟩ : BufTy).Contents (Elt F) → (⟨S190, .i32⟩ : BufTy).Contents (Elt F)),
    StableHlo.ternary main_v16 main_v18 main_c_0 main_v19 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.nullary main_c_7 (constantI S_ 32 0#32),
    StableHlo.unary main_c_7 main_v20 (broadcastInDim S190 ![] bcast_S_S190 : (⟨S_, .i32⟩ : BufTy).Contents (Elt F) → (⟨S190, .i32⟩ : BufTy).Contents (Elt F)),
    StableHlo.binary main_c main_v20 main_v21 (cmpi .slt : (⟨S190, .i32⟩ : BufTy).Contents (Elt F) → (⟨S190, .i32⟩ : BufTy).Contents (Elt F) → (⟨S190, .i1⟩ : BufTy).Contents (Elt F)),
    StableHlo.nullary main_c_8 (constantI S_ 32 20#32),
    StableHlo.unary main_c_8 main_v22 (broadcastInDim S190 ![] bcast_S_S190 : (⟨S_, .i32⟩ : BufTy).Contents (Elt F) → (⟨S190, .i32⟩ : BufTy).Contents (Elt F)),
    StableHlo.binary main_c main_v22 main_v23 (addi : (⟨S190, .i32⟩ : BufTy).Contents (Elt F) → (⟨S190, .i32⟩ : BufTy).Contents (Elt F) → (⟨S190, .i32⟩ : BufTy).Contents (Elt F)),
    StableHlo.ternary main_v21 main_v23 main_c main_v24 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v19 main_v25 (broadcastInDim S190x1 ![0] bcast_S190_S190x1_0 : (⟨S190, .i32⟩ : BufTy).Contents (Elt F) → (⟨S190x1, .i32⟩ : BufTy).Contents (Elt F)),
    StableHlo.unary main_v24 main_v26 (broadcastInDim S190x1 ![0] bcast_S190_S190x1_0 : (⟨S190, .i32⟩ : BufTy).Contents (Elt F) → (⟨S190x1, .i32⟩ : BufTy).Contents (Elt F)),
    StableHlo.binary main_v25 main_v26 main_v27 ((fun a b => concatenate S190x2 1 [⟨S190x1, a⟩, ⟨S190x1, b⟩] concatenates_S190x1_S190x1_S190x2_d1) : (⟨S190x1, .i32⟩ : BufTy).Contents (Elt F) → (⟨S190x1, .i32⟩ : BufTy).Contents (Elt F) → (⟨S190x2, .i32⟩ : BufTy).Contents (Elt F)),
    StableHlo.binary main_v0 main_v27 main_v28 ((fun x i => Host.gather gather_S4096x20x20x64_S190x2_S4096x190x64_02_12_n_n_12_1_40961164 x i) : (⟨S4096x20x20x64, .f32⟩ : BufTy).Contents (Elt F) → (⟨S190x2, .i32⟩ : BufTy).Contents (Elt F) → (⟨S4096x190x64, .f32⟩ : BufTy).Contents (Elt F)),
    StableHlo.binary main_v14 main_v28 main_v29 (mulf : (⟨S4096x190x64, .f32⟩ : BufTy).Contents (Elt F) → (⟨S4096x190x64, .f32⟩ : BufTy).Contents (Elt F) → (⟨S4096x190x64, .f32⟩ : BufTy).Contents (Elt F)),
    StableHlo.unary main_v29 main_v30 (broadcastInDim S4096x1x190x64 ![0, 2, 3] bcast_S4096x190x64_S4096x1x190x64_0_2_3 : (⟨S4096x190x64, .f32⟩ : BufTy).Contents (Elt F) → (⟨S4096x1x190x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., unary_bufs_sub ..⟩

set_option maxHeartbeats 2000000 in
/-- What the result buffer holds after the 41 operations: the composed term. Each operation's result is read at
    its own buffer and passed over at every other; the two lists of start-index columns are read operand by
    operand, since they sit inside the concatenations' operand lists. -/
theorem result_eq (V : Valuation τ sig (Elt F)) :
    after (ops (F := F)) V (Proc.devRef .tc main_v30) = refTerm (V (Proc.devRef .tc main_arg0)) := by
  unfold refTerm grid startIdx wrap tabHi tabLo
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- No operation writes the argument. -/
theorem arg_kept (V : Valuation τ sig (Elt F)) :
    after (ops (F := F)) V (Proc.devRef .tc main_arg0) = V (Proc.devRef .tc main_arg0) := by
  after_results_simp

/-- On every device, from any memory with zero counters: every weakly fair execution of @main terminates with
    the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v30).trans (result_eq _), (h c main_arg0).trans (arg_kept _)⟩)
    (run_seq scopedRefs_eq scopedSems_eq defs main (fun _ => ops) main_eq (fun _ => ops_sub) m ρ)

end Cert.ReferenceIdeal.RefValue

end
-- ==== Proof.LibGather.lean ====
/-
  A gather that picks ONE slot of a two-axis grid per result row, read at an index.

  The operand is [B, N1, N2, E]; the start indices are [P, 2], row p holding the pair (r, s) of signed words; the
  result is [B, P, E]. Axes 0 and 3 of the operand are carried whole (offset axes: the result's axes 0 and 2), axes 1
  and 2 are indexed and collapsed. Result entry (b, p, e) is the operand at (b, r', s', e), where r' is the first word
  of row p read as a signed integer and clamped into [0, N1 - 1], and s' the second word clamped into [0, N2 - 1].
-/
import Idealize.ShloMosaic.Lib.ValueIdx

noncomputable section

namespace Cert.LibGather

open Idealize.ShloMosaic Idealize.ShloMosaic.ValueIdx

variable {α : Type}

/-- The dimension numbers of that gather, for any sizes: offset axes [0, 2] of the result, operand axes [1, 2]
    collapsed and named by the start index map, the index vector along axis 1 of the start indices, slices
    [B, 1, 1, E]. Their conditions `wf` are decided on a program's literal shapes. -/
abbrev pairDims (B N1 N2 E P : Nat)
    (wf : GatherDims.WF ⟨4, ![B, N1, N2, E]⟩ ⟨2, ![P, 2]⟩ ⟨3, ![B, P, E]⟩ [0, 2] [1, 2] [] [1, 2] [] 1 ![B, 1, 1, E]) :
    GatherDims ⟨4, ![B, N1, N2, E]⟩ ⟨2, ![P, 2]⟩ ⟨3, ![B, P, E]⟩ where
  offsetDims := [0, 2]
  collapsedSliceDims := [1, 2]
  operandBatchingDims := []
  startIndicesBatchingDims := []
  startIndexMap := [1, 2]
  indexVectorDim := 1
  sliceSizes := ![B, 1, 1, E]
  wf := wf

/-- THE GATHER READ AT (b, p, e): the operand at (b, r', s', e), with r' = clamp(idx[p, 0]) into [0, N1 - 1] and
    s' = clamp(idx[p, 1]) into [0, N2 - 1], both words read signed. Per operand axis the index is start + batching
    coordinate + offset coordinate: on axes 0 and 3 only the offset coordinate is not zero (the result's b and e),
    on axes 1 and 2 only the start (the clamped word of column 0, resp. 1, of row p). -/
theorem gather_pair_apply {B N1 N2 E P w : Nat} (h1 : 0 < N1) (h2 : 0 < N2)
    (wf : GatherDims.WF ⟨4, ![B, N1, N2, E]⟩ ⟨2, ![P, 2]⟩ ⟨3, ![B, P, E]⟩ [0, 2] [1, 2] [] [1, 2] [] 1 ![B, 1, 1, E])
    (x : (⟨4, ![B, N1, N2, E]⟩ : Shape).Idx → α) (idx : IVec ⟨2, ![P, 2]⟩ w) (b : Fin B) (p : Fin P) (e : Fin E) :
    Host.gather (pairDims B N1 N2 E P wf) x idx (ix3 b p e)
      = x (ix4 b ⟨min (idx (ix2 p 0)).toInt.toNat (N1 - 1), by omega⟩
            ⟨min (idx (ix2 p 1)).toInt.toNat (N2 - 1), by omega⟩ e) := by
  unfold Host.gather
  congr 1
  funext a
  refine Fin.ext ?_
  match a with
  | ⟨0, _⟩ =>
    -- a carried axis: no start, the result's coordinate 0
    show (pairDims B N1 N2 E P wf).start (ix3 b p e) idx 0 + (pairDims B N1 N2 E P wf).batchCoord (ix3 b p e) 0
      + (pairDims B N1 N2 E P wf).offCoord (ix3 b p e) 0 = b.val
    have hs : (pairDims B N1 N2 E P wf).start (ix3 b p e) idx 0 = 0 := by
      unfold GatherDims.start; exact dif_neg (show (0 : Fin 4) ∉ ([1, 2] : List (Fin 4)) by decide)
    have ho : (pairDims B N1 N2 E P wf).offCoord (ix3 b p e) 0 = b.val := rfl
    rw [hs, GatherDims.batchCoord_eq_zero _ _ _ List.not_mem_nil, ho]
    simp only [Nat.zero_add]
  | ⟨1, _⟩ =>
    -- an indexed axis: the clamped first word of row p
    show (pairDims B N1 N2 E P wf).start (ix3 b p e) idx 1 + (pairDims B N1 N2 E P wf).batchCoord (ix3 b p e) 1
      + (pairDims B N1 N2 E P wf).offCoord (ix3 b p e) 1 = min (idx (ix2 p 0)).toInt.toNat (N1 - 1)
    have ho : (pairDims B N1 N2 E P wf).offCoord (ix3 b p e) 1 = 0 := rfl
    rw [GatherDims.batchCoord_eq_zero _ _ _ List.not_mem_nil, ho]
    simp only [Nat.add_zero]
    have hm : (1 : Fin 4) ∈ ([1, 2] : List (Fin 4)) := by decide
    unfold GatherDims.start
    rw [dif_pos (show (1 : Fin 4) ∈ (pairDims B N1 N2 E P wf).startIndexMap from hm)]
    have hsi : (pairDims B N1 N2 E P wf).siIdx (ix3 b p e) ⟨List.idxOf (1 : Fin 4) (pairDims B N1 N2 E P wf).startIndexMap,
        List.idxOf_lt_length_iff.2 hm⟩ = ix2 p 0 := by
      funext c; refine Fin.ext ?_
      match c with
      | ⟨0, _⟩ => rfl
      | ⟨1, _⟩ => rfl
    rw [hsi]
    rfl
  | ⟨2, _⟩ =>
    -- an indexed axis: the clamped second word of row p
    show (pairDims B N1 N2 E P wf).start (ix3 b p e) idx 2 + (pairDims B N1 N2 E P wf).batchCoord (ix3 b p e) 2
      + (pairDims B N1 N2 E P wf).offCoord (ix3 b p e) 2 = min (idx (ix2 p 1)).toInt.toNat (N2 - 1)
    have ho : (pairDims B N1 N2 E P wf).offCoord (ix3 b p e) 2 = 0 := rfl
    rw [GatherDims.batchCoord_eq_zero _ _ _ List.not_mem_nil, ho]
    simp only [Nat.add_zero]
    have hm : (2 : Fin 4) ∈ ([1, 2] : List (Fin 4)) := by decide
    unfold GatherDims.start
    rw [dif_pos (show (2 : Fin 4) ∈ (pairDims B N1 N2 E P wf).startIndexMap from hm)]
    have hsi : (pairDims B N1 N2 E P wf).siIdx (ix3 b p e) ⟨List.idxOf (2 : Fin 4) (pairDims B N1 N2 E P wf).startIndexMap,
        List.idxOf_lt_length_iff.2 hm⟩ = ix2 p 1 := by
      funext c; refine Fin.ext ?_
      match c with
      | ⟨0, _⟩ => rfl
      | ⟨1, _⟩ => rfl
    rw [hsi]
    rfl
  | ⟨3, _⟩ =>
    -- a carried axis: no start, the result's coordinate 2
    show (pairDims B N1 N2 E P wf).start (ix3 b p e) idx 3 + (pairDims B N1 N2 E P wf).batchCoord (ix3 b p e) 3
      + (pairDims B N1 N2 E P wf).offCoord (ix3 b p e) 3 = e.val
    have hs : (pairDims B N1 N2 E P wf).start (ix3 b p e) idx 3 = 0 := by
      unfold GatherDims.start; exact dif_neg (show (3 : Fin 4) ∉ ([1, 2] : List (Fin 4)) by decide)
    have ho : (pairDims B N1 N2 E P wf).offCoord (ix3 b p e) 3 = e.val := rfl
    rw [hs, GatherDims.batchCoord_eq_zero _ _ _ List.not_mem_nil, ho]
    simp only [Nat.zero_add]

end Cert.LibGather

end
-- ==== Proof.RefRead.lean ====
/-
  The reference's term read index by index is the result `G`.

  Entry (b, 0, p, e) of the reference's term: the insertion of the unit axis reads entry (b, p, e) of the product of
  the two gathered arrays; a product of arrays is the product of their entries; each gathered array at (b, p, e) is the
  grid at (b, r', s', e), where (r', s') is row p of its start indices, each word read signed and clamped into
  [0, 19]; row p of the start indices holds the two tables' p-th words passed through the rule c < 0 ? c + 20 : c;
  the grid at (b, r, s, e) is the input at (b, r·20 + s, e), the two having the same row-major position. What is left
  is a fact about the 190 words of each table: wrapped and clamped, the word of the first table is the larger field
  `hi p` of pair p and the word of the second the smaller field `lo p`. So the first gather reads slot (j, i) and the
  second slot (i, j): the two factors of `G`, in the same order.
-/
import proofs.«429559_j25872882991599_3_alg».proof.Proof.RefTerm
import proofs.«429559_j25872882991599_3_alg».proof.Proof.Spec
import proofs.«429559_j25872882991599_3_alg».proof.Proof.LibGather
import Idealize.ShloMosaic.Lib.ValueIdx
import Idealize.ShloMosaic.Lib.Pipeline.Value

noncomputable section

namespace Cert.PairProduct

open Idealize.ShloMosaic Idealize.ShloMosaic.ValueIdx
open Cert.ReferenceIdeal Cert.ReferenceIdeal.RefValue

/-! ## The start indices, entry by entry -/

/-- One table word after the rule for an index counted from the end: c < 0 ? c + 20 : c. -/
def wrapW (c : BitVec 32) : BitVec 32 :=
  Scalar.select (IntOp.cmpi .slt c 0#32) (IntOp.addi c 20#32) c

/-- The first table as a vector holds the p-th literal word at p (a rank-1 row-major position is the coordinate). -/
theorem tabHi_apply (p : Fin 190) : tabHi (ix1 p) = lit0 p := by
  unfold tabHi
  exact congrArg lit0 (Fin.ext (Shape.rowMajor_val_one _))

/-- The second table likewise. -/
theorem tabLo_apply (p : Fin 190) : tabLo (ix1 p) = lit1 p := by
  unfold tabLo
  exact congrArg lit1 (Fin.ext (Shape.rowMajor_val_one _))

/-- The start indices at (p, 0): the first vector's word at p, wrapped. Column 0 of the concatenation is its first
    piece, a [190, 1] column that repeats the [190] vector along the unit axis. -/
theorem startIdx_col0 (a b : IVec S190 32) (p : Fin 190) :
    startIdx a b (ix2 p 0) = wrapW (a (ix1 p)) := by
  unfold startIdx
  refine (concatenate_pair_apply_left (t := S190x2) (s₁ := S190x1) (s₂ := S190x1) 1 _ _ _ (ix2 p 0) rfl (ix2 p 0) ?_).trans ?_
  · intro c
    match c with
    | ⟨0, _⟩ => rfl
    | ⟨1, _⟩ => rfl
  · refine (broadcastInDim_apply (s := S190) (t := S190x1) ![0] _ _ (ix2 p 0) (ix1 p) ?_).trans ?_
    · intro c
      match c with
      | ⟨0, _⟩ => rfl
    · rfl

/-- The start indices at (p, 1): the second vector's word at p, wrapped. Column 1 of the concatenation is column
    1 - 1 = 0 of its second piece. -/
theorem startIdx_col1 (a b : IVec S190 32) (p : Fin 190) :
    startIdx a b (ix2 p 1) = wrapW (b (ix1 p)) := by
  unfold startIdx
  refine (concatenate_pair_apply_right (t := S190x2) (s₁ := S190x1) (s₂ := S190x1) 1 _ _ _ (ix2 p 1) rfl rfl (ix2 p 0) ?_ ?_).trans ?_
  · intro c hc
    match c with
    | ⟨0, _⟩ => rfl
    | ⟨1, _⟩ => exact absurd rfl hc
  · rfl
  · refine (broadcastInDim_apply (s := S190) (t := S190x1) ![0] _ _ (ix2 p 0) (ix1 p) ?_).trans ?_
    · intro c
      match c with
      | ⟨0, _⟩ => rfl
    · rfl

/-! ## The 190 words of each table, wrapped and clamped -/

/-- The first table's word, wrapped, read signed and clamped into [0, 19], is the larger field of the pair. -/
theorem clamp_hi : ∀ p : Fin 190, min (wrapW (lit0 p)).toInt.toNat (20 - 1) = hi p := by decide
/-- The second table's is the smaller field. -/
theorem clamp_lo : ∀ p : Fin 190, min (wrapW (lit1 p)).toInt.toNat (20 - 1) = lo p := by decide

/-! ## The grid -/

/-- The input seen as a grid, read at (b, r, s, e): row r·20 + s of the 400. Both positions in row-major order are
    ((b·20 + r)·20 + s)·64 + e. -/
theorem grid_apply (x : FVec Ideal S4096x400x64 .f32) (b : Fin 4096) (r s : Fin 20) (e : Fin 64) :
    grid x (ix4 b r s e) = x (ix3 b ⟨r.val * 20 + s.val, by omega⟩ e) := by
  unfold grid
  refine shapeCast_apply _ _ _ _ ?_
  rw [Shape.rowMajor_val_three, Shape.rowMajor_val_four]
  show ((b.val * 400 + (r.val * 20 + s.val)) * 64 + e.val) = (((b.val * 20 + r.val) * 20 + s.val) * 64 + e.val)
  omega

/-! ## One gathered array at an index -/

/-- The gather of the grid at the start indices built from the vectors `a`, `c`, read at (b, p, e): the input at
    (b, r·20 + s, e) with r, s the wrapped and clamped p-th words of `a` and `c`. -/
theorem gather_apply (x : FVec Ideal S4096x400x64 .f32) (a c : IVec S190 32) (b : Fin 4096) (p : Fin 190) (e : Fin 64) :
    Host.gather gather_S4096x20x20x64_S190x2_S4096x190x64_02_12_n_n_12_1_40961164 (grid x) (startIdx a c) (ix3 b p e)
      = x (ix3 b ⟨min (wrapW (a (ix1 p))).toInt.toNat (20 - 1) * 20 + min (wrapW (c (ix1 p))).toInt.toNat (20 - 1), by omega⟩ e) := by
  refine (Cert.LibGather.gather_pair_apply (B := 4096) (N1 := 20) (N2 := 20) (E := 64) (P := 190) (by decide) (by decide)
    Gen.gather_S4096x20x20x64_S190x2_S4096x190x64_02_12_n_n_12_1_40961164_wf (grid x) (startIdx a c) b p e).trans ?_
  refine (grid_apply x b _ _ e).trans ?_
  simp only [startIdx_col0, startIdx_col1]

/-! ## The two slots -/

/-- The row the first gather reads for pair p is the slot below the diagonal, (j, i). -/
theorem rowA_eq (p : Fin 190)
    (h : min (wrapW (tabHi (ix1 p))).toInt.toNat (20 - 1) * 20 + min (wrapW (tabLo (ix1 p))).toInt.toNat (20 - 1) < 400) :
    (⟨min (wrapW (tabHi (ix1 p))).toInt.toNat (20 - 1) * 20 + min (wrapW (tabLo (ix1 p))).toInt.toNat (20 - 1), h⟩ : Fin 400)
      = slotA p := by
  refine Fin.ext ?_
  show min (wrapW (tabHi (ix1 p))).toInt.toNat (20 - 1) * 20 + min (wrapW (tabLo (ix1 p))).toInt.toNat (20 - 1) = hi p * 20 + lo p
  rw [tabHi_apply, tabLo_apply, clamp_hi, clamp_lo]

/-- The row the second gather reads is the slot above the diagonal, (i, j). -/
theorem rowB_eq (p : Fin 190)
    (h : min (wrapW (tabLo (ix1 p))).toInt.toNat (20 - 1) * 20 + min (wrapW (tabHi (ix1 p))).toInt.toNat (20 - 1) < 400) :
    (⟨min (wrapW (tabLo (ix1 p))).toInt.toNat (20 - 1) * 20 + min (wrapW (tabHi (ix1 p))).toInt.toNat (20 - 1), h⟩ : Fin 400)
      = slotB p := by
  refine Fin.ext ?_
  show min (wrapW (tabLo (ix1 p))).toInt.toNat (20 - 1) * 20 + min (wrapW (tabHi (ix1 p))).toInt.toNat (20 - 1) = lo p * 20 + hi p
  rw [tabHi_apply, tabLo_apply, clamp_hi, clamp_lo]

/-! ## The statement -/

/-- Entry (b, 0, p, e) of the reference's term is the product of the two mirrored slots of pair `p`. -/
theorem refTerm_eq (x : FVec Ideal Cert.ReferenceIdeal.S4096x400x64 .f32) :
    Cert.ReferenceIdeal.RefValue.refTerm (F := Ideal) x = G x := by
  funext i
  obtain ⟨b, z, p, e, rfl⟩ : ∃ (b : Fin 4096) (z : Fin 1) (p : Fin 190) (e : Fin 64), i = ix4 b z p e :=
    ⟨i 0, i 1, i 2, i 3, eq_ix4 i⟩
  unfold refTerm
  refine (broadcastInDim_apply (s := S4096x190x64) (t := S4096x1x190x64) ![0, 2, 3] _ _ (ix4 b z p e) (ix3 b p e) ?_).trans ?_
  · intro c
    match c with
    | ⟨0, _⟩ => rfl
    | ⟨1, _⟩ => rfl
    | ⟨2, _⟩ => rfl
  refine (mulf_apply _ _ (ix3 b p e)).trans ?_
  refine (congrArg₂ (· * ·) (gather_apply x tabHi tabLo b p e) (gather_apply x tabLo tabHi b p e)).trans ?_
  exact congrArg₂ (· * ·) (congrArg (fun q => x (ix3 b q e)) (rowA_eq p _)) (congrArg (fun q => x (ix3 b q e)) (rowB_eq p _))

end Cert.PairProduct

end
-- ==== Proof.lean ====
/-
  The kernel and its reference compute the same array: for every batch row b, pair p = (i, j) of the 20
  fields (i < j, the 190 pairs in row-major order) and lane e, the product

      x[b, j·20 + i, e] · x[b, i·20 + j, e]

  of the two entries that mirror each other across the diagonal of the 20 × 20 field grid. The kernel reads
  the two entries as 64-column slices of a block of 128 merged rows and writes the products of two
  neighbouring pairs side by side; the reference gathers the two slots along the two field axes and multiplies.
  The two factors are the same and stand in the same order, so the results are equal on the extended reals
  as they stand: nothing is used of the inputs beyond their being arrays (the precondition is not opened).

  The kernel's side: one block as a function of its input block (Proof/KernelBlock.lean), the 32 blocks and
  the two reshapes around the grid (Proof/KernelArray.lean, Proof/Merge.lean). The reference's side: its run
  to one term (Proof/RefTerm.lean, Proof/RefRun.lean) and that term read index by index (Proof/RefRead.lean).
  The two word-level and idealized frames are the generated ones; the reference's frame is its run with the
  result dropped; the idealization rewrote nothing, so there is nothing to preserve.
-/
import proofs.«429559_j25872882991599_3_alg».proof.Defs
import proofs.«429559_j25872882991599_3_alg».proof.Proof.Gen.Kernel
import proofs.«429559_j25872882991599_3_alg».proof.Proof.Gen.Kernel.Skeleton
import proofs.«429559_j25872882991599_3_alg».proof.Proof.Gen.Kernel.Launch
import proofs.«429559_j25872882991599_3_alg».proof.Proof.Gen.Kernel.Points
import proofs.«429559_j25872882991599_3_alg».proof.Proof.Gen.Kernel.Frame
import proofs.«429559_j25872882991599_3_alg».proof.Proof.Gen.KernelIdeal
import proofs.«429559_j25872882991599_3_alg».proof.Proof.Gen.KernelIdeal.Skeleton
import proofs.«429559_j25872882991599_3_alg».proof.Proof.Gen.KernelIdeal.Launch
import proofs.«429559_j25872882991599_3_alg».proof.Proof.Gen.KernelIdeal.Points
import proofs.«429559_j25872882991599_3_alg».proof.Proof.Gen.KernelIdeal.Frame
import proofs.«429559_j25872882991599_3_alg».proof.Proof.Gen.ReferenceIdeal
import proofs.«429559_j25872882991599_3_alg».proof.Proof.Gen.Pre_finite_inputs
import proofs.«429559_j25872882991599_3_alg».proof.Proof.KernelArray
import proofs.«429559_j25872882991599_3_alg».proof.Proof.RefRun
import proofs.«429559_j25872882991599_3_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both programs end with the result at `G` of the argument: the kernel by its blocks, the reference by its
    term read index by index; the arguments agree, so the two results are one array. -/
theorem algebraic : Cert.algebraic_KernelIdeal_ReferenceIdeal := by
  intro m ρ m' ρ' _ hagree
  refine ⟨_, Cert.PairProduct.kernel_run m ρ, ?_⟩
  refine (θ_run Cert.ReferenceIdeal.defs _ _).mono (fun _ h c => ⟨(h c).1.trans ?_, (h c).2⟩)
    (Cert.ReferenceIdeal.RefValue.run (F := Ideal) m' ρ')
  rw [hagree c]
  exact Cert.PairProduct.refTerm_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
